-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048 : Shape := ⟨1, ![2048]⟩
abbrev S2048x2048 : Shape := ⟨2, ![2048, 2048]⟩
abbrev S2048x8192 : Shape := ⟨2, ![2048, 8192]⟩
abbrev S8192 : Shape := ⟨1, ![8192]⟩
abbrev S8192x2048 : Shape := ⟨2, ![8192, 2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_
  bcast_S_S8192x2048 : S_.BroadcastsInDim S8192x2048 (![] : Fin 0 → Fin S8192x2048.rank)
  reducesTo_S8192x2048_S_d0_1 : S8192x2048.ReducesTo [0, 1] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048x8192 .f32) (main_arg8 : FVec F S8192 .f32) (main_arg9 : FVec F S8192x2048 .f32) (main_arg10 : FVec F S2048 .f32) (main_v33 : IVec S_ 1) : IVec S_ 1 :=
  let main_v34 : FVec F S2048x8192 .f32 := Host.absf main_arg7
  let main_cst_12 : FVec F S_ .f32 := constant S_ .f32 0x7F800000#32
  let main_v35 : FVec F S2048x8192 .f32 := broadcastInDim S2048x8192 ![] bcast_S_S2048x8192 main_cst_12
  let main_v36 : IVec S2048x8192 1 := cmpf .olt main_v34 main_v35
  let main_c_13 : IVec S_ 1 := constantI S_ 1 1#1
  let main_v37 : IVec S_ 1 := (fun x v => Host.reduce IntOp.andi x v reducesTo_S2048x8192_S_d0_1 h_S_) main_v36 main_c_13
  let main_v38 : IVec S_ 1 := andi main_v33 main_v37
  let main_v39 : FVec F S8192 .f32 := Host.absf main_arg8
  let main_cst_14 : FVec F S_ .f32 := constant S_ .f32 0x7F800000#32
  let main_v40 : FVec F S8192 .f32 := broadcastInDim S8192 ![] bcast_S_S8192 main_cst_14
  let main_v41 : IVec S8192 1 := cmpf .olt main_v39 main_v40
  let main_c_15 : IVec S_ 1 := constantI S_ 1 1#1
  let main_v42 : IVec S_ 1 := (fun x v => Host.reduce IntOp.andi x v reducesTo_S8192_S_d0 h_S_) main_v41 main_c_15
  let main_v43 : IVec S_ 1 := andi main_v38 main_v42
  let main_v44 : FVec F S8192x2048 .f32 := Host.absf main_arg9
  let main_cst_16 : FVec F S_ .f32 := constant S_ .f32 0x7F800000#32
  let main_v45 : FVec F S8192x2048 .f32 := broadcastInDim S8192x2048 ![] bcast_S_S8192x2048 main_cst_16
  let main_v46 : IVec S8192x2048 1 := cmpf .olt main_v44 main_v45
  let main_c_17 : IVec S_ 1 := constantI S_ 1 1#1
  let main_v47 : IVec S_ 1 := (fun x v => Host.reduce IntOp.andi x v reducesTo_S8192x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048x2048 .f32) (main_arg5 : FVec F S2048 .f32) (main_arg6 : FVec F S2048 .f32) (main_arg7 : FVec F S2048x8192 .f32) (main_arg8 : FVec F S8192 .f32) (main_arg9 : FVec F S8192x2048 .f32) (main_arg10 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x2048x2048 .f32) (main_arg1 : FVec F S4x2048x2048 .f32) (main_arg2 : FVec F S4x2048x2048 .f32) (main_arg3 : FVec F S2048 .f32) (main_arg4 : FVec F S2048x2048 .f32) (main_arg5 : FVec F S2048 .f32) (main_arg6 : FVec F S2048 .f32) (main_arg7 : FVec F S2048x8192 .f32) (main_arg8 : FVec F S8192 .f32) (main_arg9 : FVec F S8192x2048 .f32) (main_arg10 : FVec F S2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S4x2048x2048 .f32 := Host.absf main_arg1
  let main_cst_0 : FVec F S_ .f32 := constant S_ .f32 0x7F800000#32
  let main_v5 : FVec F S4x2048x2048 .f32 := broadcastInDim S4x2048x2048 ![] bcast_S_S4x2048x2048 main_cst_0
  let main_v6 : IVec S4x2048x2048 1 := cmpf .olt main_v4 main_v5
  let main_c_1 : IVec S_ 1 := constantI S_ 1 1#1
  let main_v7 : IVec S_ 1 := (fun x v => Host.reduce IntOp.andi x v reducesTo_S4x2048x2048_S_d0_1_2 h_S_) main_v6 main_c_1
  let main_v8 : IVec S_ 1 := andi main_v3 main_v7
  let main_v9 : FVec F S4x2048x2048 .f32 := Host.absf main_arg2
  let main_cst_2 : FVec F S_ .f32 := constant S_ .f32 0x7F800000#32
  let main_v10 : FVec F S4x2048x2048 .f32 := broadcastInDim S4x2048x2048 ![] bcast_S_S4x2048x2048 main_cst_2
  let main_v11 : IVec S4x2048x2048 1 := cmpf .olt main_v9 main_v10
  let main_c_3 : IVec S_ 1 := constantI S_ 1 1#1
  let main_v12 : IVec S_ 1 := (fun x v => Host.reduce IntOp.andi x v reducesTo_S4x2048x2048_S_d0_1_2 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_v13 main_v16
-- ==== Kernel.lean ====
abbrev S4x2048x2048 : Shape := ⟨3, ![4, 2048, 2048]⟩
abbrev S2048 : Shape := ⟨1, ![2048]⟩
abbrev S2048x2048 : Shape := ⟨2, ![2048, 2048]⟩
abbrev S2048x8192 : Shape := ⟨2, ![2048, 8192]⟩
abbrev S8192 : Shape := ⟨1, ![8192]⟩
abbrev S8192x2048 : Shape := ⟨2, ![8192, 2048]⟩
abbrev S1x2048 : Shape := ⟨2, ![1, 2048]⟩
abbrev S1x8192 : Shape := ⟨2, ![1, 8192]⟩
abbrev S256x2048 : Shape := ⟨2, ![256, 2048]⟩
abbrev S2048x512 : Shape := ⟨2, ![2048, 512]⟩
abbrev S1x512 : Shape := ⟨2, ![1, 512]⟩
abbrev S512x2048 : Shape := ⟨2, ![512, 2048]⟩
abbrev S256 : Shape := ⟨1, ![256]⟩
abbrev S256x1 : Shape := ⟨2, ![256, 1]⟩
abbrev S256x512 : Shape := ⟨2, ![256, 512]⟩

abbrev nBuf : Space → Nat
  | .hbm => 22
  | .vmem => 17
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048, .f32⟩
  | .hbm, ⟨7, _⟩ => ⟨S2048x8192, .f32⟩
  | .hbm, ⟨8, _⟩ => ⟨S8192, .f32⟩
  | .hbm, ⟨9, _⟩ => ⟨S8192x2048, .f32⟩
  | .hbm, ⟨10, _⟩ => ⟨S2048, .f32⟩
  | .hbm, ⟨11, _⟩ => ⟨S8192x2048, .f32⟩
  | .hbm, ⟨12, _⟩ => ⟨S8192x2048, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S1x8192, .f32⟩
  | .hbm, ⟨17, _⟩ => ⟨S1x2048, .f32⟩
  | .hbm, ⟨18, _⟩ => ⟨S2048x8192, .bf16⟩
  | .hbm, ⟨19, _⟩ => ⟨S8192x2048, .bf16⟩
  | .hbm, ⟨20, _⟩ => ⟨S8192x2048, .f32⟩
  | .hbm, ⟨21, _⟩ => ⟨S4x2048x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S1x512, .f32⟩
  | .local _ .vmem, ⟨8, _⟩ => ⟨S1x512, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![32, 16], ![false, false]⟩

def k0_cond2 (i : grid0.Coords) : BitVec 1 :=
  let arg1 : BitVec 32 := BitVec.ofNat 32 (i 1).val
  let c15_i32 : BitVec 32 := 15#32
  let v23 : BitVec 1 := Scalar.cmpi .eq arg1 c15_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  shapeCasts_S4x2048x2048_S8192x2048 : S4x2048x2048.ShapeCasts S8192x2048
  shapeCasts_S2048_S1x2048 : S2048.ShapeCasts S1x2048
  shapeCasts_S8192_S1x8192 : S8192.ShapeCasts S1x8192
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  reduces_S256x2048_S256 : S256x2048.Reduces [1] S256
  shapeCasts_S256_S256x1 : S256.ShapeCasts S256x1
  broadcasts_S256x1_S256x2048 : S256x1.Broadcasts S256x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  shapeCasts_S8192x2048_S4x2048x2048 : S8192x2048.ShapeCasts S4x2048x2048
  dot_S256x2048_S2048x512_S256x512_1_0_0_1_n_n_wf : DotDims.WF S256x2048 S2048x512 S256x512 [1] [0] [0] [1] [] []
  dot_S256x512_S512x2048_S256x2048_1_0_0_1_n_n_wf : DotDims.WF S256x512 S512x2048 S256x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S8192x2048.size a
  hwx0_1 : ∀ i : grid0.Coords, EltTy.bits .f32 = 32 ∨ (Rect.block (s := S8192x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S2048x8192.size a
  hwx0_5 : ∀ i : grid0.Coords, EltTy.bits .bf16 = 32 ∨ (Rect.block (s := S2048x8192) S2048x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x8192.size a
  hwx0_6 : ∀ i : grid0.Coords, EltTy.bits .f32 = 32 ∨ (Rect.block (s := S1x8192) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x2048.size a ≤ S8192x2048.size a
  hwx0_7 : ∀ i : grid0.Coords, EltTy.bits .bf16 = 32 ∨ (Rect.block (s := S8192x2048) S512x2048.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x2048.size a ≤ S8192x2048.size a
  hwx0_9 : ∀ i : grid0.Coords, EltTy.bits .f32 = 32 ∨ (Rect.block (s := S8192x2048) S256x2048.size (cc0_transform_9 i) (hinb0_9 i)).WholeWords (EltTy.packing .f32)

variable [Facts₀]

def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf
def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf

abbrev win0_0 : Pipeline.Window sig grid0 :=
  Pipeline.Window.ofSpec (Memref.whole main_v0) S256x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S2048x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8) S512x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S256x2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S4x2048x2048 : Shape := ⟨3, ![4, 2048, 2048]⟩
abbrev S2048 : Shape := ⟨1, ![2048]⟩
abbrev S2048x2048 : Shape := ⟨2, ![2048, 2048]⟩
abbrev S2048x8192 : Shape := ⟨2, ![2048, 8192]⟩
abbrev S8192 : Shape := ⟨1, ![8192]⟩
abbrev S8192x2048 : Shape := ⟨2, ![8192, 2048]⟩
abbrev S1x1x2048 : Shape := ⟨3, ![1, 1, 2048]⟩
abbrev S_ : Shape := ⟨0, ![]⟩
abbrev S4x2048 : Shape := ⟨2, ![4, 2048]⟩
abbrev S4x2048x1 : Shape := ⟨3, ![4, 2048, 1]⟩
abbrev S4x2048x8192 : Shape := ⟨3, ![4, 2048, 8192]⟩
abbrev S1x1x8192 : Shape := ⟨3, ![1, 1, 8192]⟩

abbrev nBuf : Space → Nat
  | .hbm => 56
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048, .f32⟩
  | .hbm, ⟨7, _⟩ => ⟨S2048x8192, .f32⟩
  | .hbm, ⟨8, _⟩ => ⟨S8192, .f32⟩
  | .hbm, ⟨9, _⟩ => ⟨S8192x2048, .f32⟩
  | .hbm, ⟨10, _⟩ => ⟨S2048, .f32⟩
  | .hbm, ⟨11, _⟩ => ⟨S1x1x2048, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S_, .f32⟩
  | .hbm, ⟨25, _⟩ => ⟨S4x2048, .f32⟩
  | .hbm, ⟨26, _⟩ => ⟨S4x2048x1, .f32⟩
  | .hbm, ⟨27, _⟩ => ⟨S_, .f32⟩
  | .hbm, ⟨28, _⟩ => ⟨S4x2048x1, .f32⟩
  | .hbm, ⟨29, _⟩ => ⟨S4x2048x1, .f32⟩
  | .hbm, ⟨30, _⟩ => ⟨S4x2048x2048, .f32⟩
  | .hbm, ⟨31, _⟩ => ⟨S4x2048x2048, .f32⟩
  | .hbm, ⟨32, _⟩ => ⟨S_, .f32⟩
  | .hbm, ⟨33, _⟩ => ⟨S4x2048x1, .f32⟩
  | .hbm, ⟨34, _⟩ => ⟨S4x2048x1, .f32⟩
  | .hbm, ⟨35, _⟩ => ⟨S4x2048x1, .f32⟩
  | .hbm, ⟨36, _⟩ => ⟨S4x2048x2048, .f32⟩
  | .hbm, ⟨37, _⟩ => ⟨S4x2048x2048, .f32⟩
  | .hbm, ⟨38, _⟩ => ⟨S1x1x2048, .f32⟩
  | .hbm, ⟨39, _⟩ => ⟨S4x2048x2048, .f32⟩
  | .hbm, ⟨40, _⟩ => ⟨S4x2048x2048, .f32⟩
  | .hbm, ⟨41, _⟩ => ⟨S1x1x2048, .f32⟩
  | .hbm, ⟨42, _⟩ => ⟨S4x2048x2048, .f32⟩
  | .hbm, ⟨43, _⟩ => ⟨S4x2048x2048, .f32⟩
  | .hbm, ⟨44, _⟩ => ⟨S4x2048x8192, .f32⟩
  | .hbm, ⟨45, _⟩ => ⟨S1x1x8192, .f32⟩
  | .hbm, ⟨46, _⟩ => ⟨S4x2048x8192, .f32⟩
  | .hbm, ⟨47, _⟩ => ⟨S4x2048x8192, .f32⟩
  | .hbm, ⟨48, _⟩ => ⟨S_, .f32⟩
  | .hbm, ⟨49, _⟩ => ⟨S4x2048x8192, .f32⟩
  | .hbm, ⟨50, _⟩ => ⟨S4x2048x8192, .f32⟩
  | .hbm, ⟨51, _⟩ => ⟨S4x2048x2048, .f32⟩
  | .hbm, ⟨52, _⟩ => ⟨S1x1x2048, .f32⟩
  | .hbm, ⟨53, _⟩ => ⟨S4x2048x2048, .f32⟩
  | .hbm, ⟨54, _⟩ => ⟨S4x2048x2048, .f32⟩
  | .hbm, ⟨55, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_cst : Ref sig .tc := ⟨.hbm, 48, rfl⟩
abbrev main_call0_v0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  reducesTo_S4x2048x2048_S4x2048_d2 : S4x2048x2048.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  bcast_S8192_S1x1x8192_2 : S8192.BroadcastsInDim S1x1x8192 (![2] : Fin 1 → Fin S1x1x8192.rank)
  bcast_S1x1x8192_S4x2048x8192_0_1_2 : S1x1x8192.BroadcastsInDim S4x2048x8192 (![0, 1, 2] : Fin 3 → Fin S4x2048x8192.rank)
  bcast_S_S4x2048x8192 : S_.BroadcastsInDim S4x2048x8192 (![] : Fin 0 → Fin S4x2048x8192.rank)
  dot_S4x2048x2048_S2048x8192_S4x2048x8192_2_0_01_1_n_n_wf : DotDims.WF S4x2048x2048 S2048x8192 S4x2048x8192 [2] [0] [0, 1] [1] [] []
  dot_S4x2048x8192_S8192x2048_S4x2048x2048_2_0_01_1_n_n_wf : DotDims.WF S4x2048x8192 S8192x2048 S4x2048x2048 [2] [0] [0, 1] [1] [] []

variable [Facts₀]

def dot_S4x2048x2048_S2048x8192_S4x2048x8192_2_0_01_1_n_n : DotDims S4x2048x2048 S2048x8192 S4x2048x8192 where
  lhsContracting := [2]
  rhsContracting := [0]
  lhsNonContracting := [0, 1]
  rhsNonContracting := [1]
  lhsBatch := []
  rhsBatch := []
  wf := dot_S4x2048x2048_S2048x8192_S4x2048x8192_2_0_01_1_n_n_wf
def dot_S4x2048x8192_S8192x2048_S4x2048x2048_2_0_01_1_n_n : DotDims S4x2048x8192 S8192x2048 S4x2048x2048 where
  lhsContracting := [2]
  rhsContracting := [0]
  lhsNonContracting := [0, 1]
  rhsNonContracting := [1]
  lhsBatch := []
  rhsBatch := []
  wf := dot_S4x2048x8192_S8192x2048_S4x2048x2048_2_0_01_1_n_n_wf

class Facts : Prop extends Facts₀ where

variable [Facts]
-- ==== Proof.Spec.lean ====
/-
  The layer as a function of one row, on the extended reals.

  A row of the residual stream is `x j = (a j + bias j) + r j`. Its layer normalization subtracts the row's mean,
  scales by the reciprocal square root of the row's variance plus a small constant, multiplies by a gain and adds an
  offset. The first dense layer takes the normalized row to 8192 hidden units, adds their bias and clamps at zero; the
  second brings the hidden row back to 2048 columns, adds its bias, and the residual row is added last.

  The second dense layer's sum over the 8192 hidden units can be taken in sixteen slabs of 512, accumulated from zero:
  addition of extended reals is commutative and associative (also at the infinities), so regrouping a finite sum needs
  no finiteness (`accum_full`).
-/
import Idealize.ShloMosaic.PureOps.Ideal
import Idealize.ShloMosaic.PureOps.Ideal.Laws
import Mathlib.Algebra.BigOperators.Fin

noncomputable section

namespace Cert.Spec

open Idealize.ShloMosaic

/-- The row length as the extended real its pattern denotes (the pattern is the same on both sides and is never evaluated). -/
abbrev width : EReal := Ideal.ofBits .f32 0x45000000#32
/-- The constant added to the variance. -/
abbrev eps : EReal := Ideal.ofBits .f32 0x3727C5AC#32
/-- The rectifier's floor. -/
abbrev floor0 : EReal := Ideal.ofBits .f32 0x00000000#32

/-- The residual stream of a row. -/
def resid (a bias r : Fin 2048 → EReal) : Fin 2048 → EReal := fun j => (a j + bias j) + r j

/-- The mean of a row. -/
def mean (x : Fin 2048 → EReal) : EReal := Ideal.div (∑ k : Fin 2048, x k) width

/-- The variance of a row: the mean of the squared deviations. -/
def var (x : Fin 2048 → EReal) : EReal := Ideal.div (∑ k : Fin 2048, (x k - mean x) * (x k - mean x)) width

/-- The normalized row with gain `g` and offset `β`. -/
def normed (x g β : Fin 2048 → EReal) : Fin 2048 → EReal :=
  fun j => ((x j - mean x) * Ideal.rsqrt (var x + eps)) * g j + β j

/-- The hidden row: first dense layer, bias, rectifier. -/
def hidden (h : Fin 2048 → EReal) (w1 : Fin 2048 → Fin 8192 → EReal) (b1 : Fin 8192 → EReal) : Fin 8192 → EReal :=
  fun k => max ((∑ j : Fin 2048, h j * w1 j k) + b1 k) floor0

/-- The second dense layer of a hidden row, at a column. -/
def dense2 (z : Fin 8192 → EReal) (w2 : Fin 8192 → Fin 2048 → EReal) (j : Fin 2048) : EReal :=
  ∑ k : Fin 8192, z k * w2 k j

/-- The whole layer on one row. -/
def layer (a bias r g β : Fin 2048 → EReal) (w1 : Fin 2048 → Fin 8192 → EReal) (b1 : Fin 8192 → EReal)
    (w2 : Fin 8192 → Fin 2048 → EReal) (b2 : Fin 2048 → EReal) : Fin 2048 → EReal :=
  fun j => (dense2 (hidden (normed (resid a bias r) g β) w1 b1) w2 j + b2 j) + resid a bias r j

/-! ## The hidden units in slabs of 512 -/

/-- Hidden unit `k'` of slab `b` (reduced modulo 8192 so that it is a hidden unit for every pair of naturals). -/
def unit (b k' : ℕ) : Fin 8192 := ⟨(b * 512 + k') % 8192, Nat.mod_lt _ (by decide)⟩

theorem unit_val {b k' : ℕ} (hb : b < 16) (hk : k' < 512) : (unit b k').val = b * 512 + k' :=
  Nat.mod_eq_of_lt (by omega)

/-- Slab `b`'s share of the second dense layer at a column. -/
def slab (z : Fin 8192 → EReal) (w2 : Fin 8192 → Fin 2048 → EReal) (j : Fin 2048) (b : ℕ) : EReal :=
  ∑ k' : Fin 512, z (unit b k'.val) * w2 (unit b k'.val) j

/-- The first `n` slabs, accumulated. -/
def accum (z : Fin 8192 → EReal) (w2 : Fin 8192 → Fin 2048 → EReal) (j : Fin 2048) (n : ℕ) : EReal :=
  ∑ b ∈ Finset.range n, slab z w2 j b

theorem accum_zero (z : Fin 8192 → EReal) (w2 : Fin 8192 → Fin 2048 → EReal) (j : Fin 2048) : accum z w2 j 0 = 0 :=
  Finset.sum_range_zero _

theorem accum_succ (z : Fin 8192 → EReal) (w2 : Fin 8192 → Fin 2048 → EReal) (j : Fin 2048) (n : ℕ) :
    accum z w2 j (n + 1) = accum z w2 j n + slab z w2 j n :=
  Finset.sum_range_succ _ _

/-- A sum over `m * n` consecutive naturals, taken in `m` runs of `n`. -/
theorem sum_range_runs {M : Type*} [AddCommMonoid M] (G : ℕ → M) (n : ℕ) :
    ∀ m : ℕ, ∑ k ∈ Finset.range (m * n), G k = ∑ b ∈ Finset.range m, ∑ k' ∈ Finset.range n, G (b * n + k')
  | 0 => by simp
  | m + 1 => by rw [Nat.succ_mul, Finset.sum_range_add, sum_range_runs G n m, Finset.sum_range_succ]

/-- All sixteen slabs make the whole second dense layer. -/
theorem accum_full (z : Fin 8192 → EReal) (w2 : Fin 8192 → Fin 2048 → EReal) (j : Fin 2048) :
    accum z w2 j 16 = dense2 z w2 j := by
  unfold accum slab dense2
  have h := sum_range_runs (fun n : ℕ => z ⟨n % 8192, Nat.mod_lt _ (by decide)⟩ * w2 ⟨n % 8192, Nat.mod_lt _ (by decide)⟩ j) 512 16
  rw [Finset.sum_range] at h
  have e : ∀ k : Fin (16 * 512), (⟨k.val % 8192, Nat.mod_lt _ (by decide)⟩ : Fin 8192) = k :=
    fun k => Fin.ext (Nat.mod_eq_of_lt k.isLt)
  simp only [e] at h
  refine Eq.trans ?_ h.symm
  refine Finset.sum_congr rfl fun b _ => ?_
  rw [Finset.sum_range]
  rfl

end Cert.Spec

end
-- ==== Proof.RefValue.lean ====
/-
  The reference program's result read at an index: at `(b, s, j)` it is the layer applied to row `(b, s)` of the
  input and residual arrays, at column `j`.

  The program is read one stage at a time, always at an index built from literal coordinates: the residual stream of
  the row, its mean, its variance, the normalized row, the hidden row, the second dense layer, and last the layer.
  A broadcast reads its operand at the index with the broadcast axes dropped; a sum along the last axis is the
  Fin-indexed sum over that axis (its initial value is the zero word, which is zero); a contraction is the Fin-indexed
  sum of products over the contracted axis. The three float words (the row length, the small constant, the rectifier's
  floor) are the same words in the row formulas and are never evaluated.
-/
import proofs.«157771_j37125697307027_1_alg».proof.Proof.Gen.ReferenceIdeal.Read
import proofs.«157771_j37125697307027_1_alg».proof.Proof.Spec
import Idealize.ShloMosaic.Lib.ValueIdx
import Idealize.ShloMosaic.PureOps.Ideal.Laws

noncomputable section

namespace Cert.RefValue

open Idealize.ShloMosaic Idealize.ShloMosaic.TcCoe Idealize.ShloMosaic.ValueIdx
open Cert.ReferenceIdeal Cert.ReferenceIdeal.Read

section stages

variable (x0 x1 : FVec Ideal S4x2048x2048 .f32) (x3 x5 x6 : FVec Ideal S2048 .f32) (x7 : FVec Ideal S2048x8192 .f32)
    (x8 : FVec Ideal S8192 .f32) (x9 : FVec Ideal S8192x2048 .f32) (x10 : FVec Ideal S2048 .f32)
    (b : Fin 4) (s : Fin 2048)

/-! ## The residual stream of the row -/

/-- The sum of the input, its bias and the residual input, at `(b, s, j)`. -/
theorem resid_at (j : Fin 2048) :
    val_main_v3 (F := Ideal) x0 x1 x3 (ix3 b s j)
      = Cert.Spec.resid (fun j' => x0 (ix3 b s j')) (fun j' => x3 (ix1 j')) (fun j' => x1 (ix3 b s j')) j := by
  have e : idx_main_v0 (idx_main_v1 (ix3 b s j)) = ix1 j :=
    funext fun a => Fin.ext (by match a with | ⟨0, _⟩ => rfl)
  rw [val_main_v3_apply, val_main_v2_apply, val_main_v1_apply, val_main_v0_apply, e]
  rfl

/-! ## The mean of the row -/

/-- The row's sum. -/
theorem rowsum_at :
    val_main_v4 (F := Ideal) x0 x1 x3 (ix2 b s)
      = ∑ k : Fin 2048, Cert.Spec.resid (fun j' => x0 (ix3 b s j')) (fun j' => x3 (ix1 j')) (fun j' => x1 (ix3 b s j')) k := by
  rw [val_main_v4_apply, val_main_cst_apply, Ideal.ofBits_def, Ideal.ofBits_zero_f32, zero_add]
  refine Finset.sum_congr rfl fun k _ => ?_
  have e : idx_main_v4 (ix2 b s) k = ix3 b s k :=
    funext fun a => Fin.ext (by match a with | ⟨0, _⟩ => rfl | ⟨1, _⟩ => rfl | ⟨2, _⟩ => rfl)
  rw [e]
  exact resid_at x0 x1 x3 b s k

/-- The row's sum divided by the row length is the row's mean. -/
theorem mean_at :
    val_main_v7 (F := Ideal) x0 x1 x3 (ix3 b s (0 : Fin 1))
      = Cert.Spec.mean (Cert.Spec.resid (fun j' => x0 (ix3 b s j')) (fun j' => x3 (ix1 j')) (fun j' => x1 (ix3 b s j'))) := by
  have e : idx_main_v5 (ix3 b s (0 : Fin 1)) = ix2 b s :=
    funext fun a => Fin.ext (by match a with | ⟨0, _⟩ => rfl | ⟨1, _⟩ => rfl)
  rw [val_main_v7_apply, val_main_v5_apply, val_main_v6_apply, val_main_cst_0_apply, e, rowsum_at]
  rfl

/-! ## The variance of the row -/

/-- The deviation from the row's mean at `(b, s, j)`. -/
theorem dev_at (j : Fin 2048) :
    val_main_v9 (F := Ideal) x0 x1 x3 (ix3 b s j)
      = Cert.Spec.resid (fun j' => x0 (ix3 b s j')) (fun j' => x3 (ix1 j')) (fun j' => x1 (ix3 b s j')) j
        - Cert.Spec.mean (Cert.Spec.resid (fun j' => x0 (ix3 b s j')) (fun j' => x3 (ix1 j')) (fun j' => x1 (ix3 b s j'))) := by
  have e : idx_main_v8 (ix3 b s j) = ix3 b s (0 : Fin 1) :=
    funext fun a => Fin.ext (by match a with | ⟨0, _⟩ => rfl | ⟨1, _⟩ => rfl | ⟨2, _⟩ => rfl)
  rw [val_main_v9_apply, val_main_v8_apply, e, mean_at, resid_at]
  rfl

/-- The row's sum of squared deviations. -/
theorem sqsum_at :
    val_main_v11 (F := Ideal) x0 x1 x3 (ix2 b s)
      = ∑ k : Fin 2048,
          (Cert.Spec.resid (fun j' => x0 (ix3 b s j')) (fun j' => x3 (ix1 j')) (fun j' => x1 (ix3 b s j')) k
            - Cert.Spec.mean (Cert.Spec.resid (fun j' => x0 (ix3 b s j')) (fun j' => x3 (ix1 j')) (fun j' => x1 (ix3 b s j'))))
          * (Cert.Spec.resid (fun j' => x0 (ix3 b s j')) (fun j' => x3 (ix1 j')) (fun j' => x1 (ix3 b s j')) k
            - Cert.Spec.mean (Cert.Spec.resid (fun j' => x0 (ix3 b s j')) (fun j' => x3 (ix1 j')) (fun j' => x1 (ix3 b s j')))) := by
  rw [val_main_v11_apply, val_main_cst_1_apply, Ideal.ofBits_def, Ideal.ofBits_zero_f32, zero_add]
  refine Finset.sum_congr rfl fun k _ => ?_
  have e : idx_main_v11 (ix2 b s) k = ix3 b s k :=
    funext fun a => Fin.ext (by match a with | ⟨0, _⟩ => rfl | ⟨1, _⟩ => rfl | ⟨2, _⟩ => rfl)
  rw [e, val_main_v10_apply, dev_at]
  rfl

/-- The sum of squared deviations divided by the row length is the row's variance. -/
theorem var_at :
    val_main_v14 (F := Ideal) x0 x1 x3 (ix3 b s (0 : Fin 1))
      = Cert.Spec.var (Cert.Spec.resid (fun j' => x0 (ix3 b s j')) (fun j' => x3 (ix1 j')) (fun j' => x1 (ix3 b s j'))) := by
  have e : idx_main_v12 (ix3 b s (0 : Fin 1)) = ix2 b s :=
    funext fun a => Fin.ext (by match a with | ⟨0, _⟩ => rfl | ⟨1, _⟩ => rfl)
  rw [val_main_v14_apply, val_main_v12_apply, val_main_v13_apply, val_main_cst_2_apply, e, sqsum_at]
  rfl

/-! ## The normalized row -/

/-- Deviation times the reciprocal root of variance plus the small constant, times the gain, plus the offset. -/
theorem normed_at (j : Fin 2048) :
    val_main_v27 (F := Ideal) x0 x1 x3 x5 x6 (ix3 b s j)
      = Cert.Spec.normed (Cert.Spec.resid (fun j' => x0 (ix3 b s j')) (fun j' => x3 (ix1 j')) (fun j' => x1 (ix3 b s j')))
          (fun j' => x5 (ix1 j')) (fun j' => x6 (ix1 j')) j := by
  have e15 : idx_main_v15 (ix3 b s j) = ix3 b s (0 : Fin 1) :=
    funext fun a => Fin.ext (by match a with | ⟨0, _⟩ => rfl | ⟨1, _⟩ => rfl | ⟨2, _⟩ => rfl)
  have e20 : idx_main_v20 (ix3 b s j) = ix3 b s (0 : Fin 1) :=
    funext fun a => Fin.ext (by match a with | ⟨0, _⟩ => rfl | ⟨1, _⟩ => rfl | ⟨2, _⟩ => rfl)
  have e22 : idx_main_v22 (idx_main_v23 (ix3 b s j)) = ix1 j :=
    funext fun a => Fin.ext (by match a with | ⟨0, _⟩ => rfl)
  have e25 : idx_main_v25 (idx_main_v26 (ix3 b s j)) = ix1 j :=
    funext fun a => Fin.ext (by match a with | ⟨0, _⟩ => rfl)
  rw [val_main_v27_apply, val_main_v24_apply, val_main_v21_apply, val_main_v16_apply, val_main_v15_apply, e15, mean_at,
    resid_at, val_main_v20_apply, e20, val_main_v19_apply, val_main_v18_apply, var_at, val_main_v17_apply,
    val_main_cst_3_apply, val_main_v23_apply, val_main_v22_apply, e22, val_main_v26_apply, val_main_v25_apply, e25]
  rfl

/-! ## The hidden row -/

/-- First dense layer, bias and rectifier at hidden unit `k`. -/
theorem hidden_at (k : Fin 8192) :
    val_main_v32 (F := Ideal) x0 x1 x3 x5 x6 x7 x8 (ix3 b s k)
      = Cert.Spec.hidden
          (Cert.Spec.normed (Cert.Spec.resid (fun j' => x0 (ix3 b s j')) (fun j' => x3 (ix1 j')) (fun j' => x1 (ix3 b s j')))
            (fun j' => x5 (ix1 j')) (fun j' => x6 (ix1 j')))
          (fun j' k' => x7 (ix2 j' k')) (fun k' => x8 (ix1 k')) k := by
  have e29 : idx_main_v29 (idx_main_v30 (ix3 b s k)) = ix1 k :=
    funext fun a => Fin.ext (by match a with | ⟨0, _⟩ => rfl)
  have hdot : val_main_v28 (F := Ideal) x0 x1 x3 x5 x6 x7 (ix3 b s k)
      = ∑ j : Fin 2048,
          Cert.Spec.normed (Cert.Spec.resid (fun j' => x0 (ix3 b s j')) (fun j' => x3 (ix1 j')) (fun j' => x1 (ix3 b s j')))
            (fun j' => x5 (ix1 j')) (fun j' => x6 (ix1 j')) j * x7 (ix2 j k) := by
    rw [val_main_v28_apply]
    refine Finset.sum_congr rfl fun j _ => ?_
    have el : lidx_main_v28 (ix3 b s k) j = ix3 b s j :=
      funext fun a => Fin.ext (by match a with | ⟨0, _⟩ => rfl | ⟨1, _⟩ => rfl | ⟨2, _⟩ => rfl)
    have er : ridx_main_v28 (ix3 b s k) j = ix2 j k :=
      funext fun a => Fin.ext (by match a with | ⟨0, _⟩ => rfl | ⟨1, _⟩ => rfl)
    rw [el, er, normed_at]
  rw [val_main_v32_apply, val_main_v31_apply, hdot, val_main_v30_apply, val_main_v29_apply, e29,
    val_main_call0_v0_apply, val_main_call0_cst_apply]
  rfl

/-! ## The second dense layer -/

/-- The hidden row contracted with the second weight matrix, at column `j`. -/
theorem dense2_at (j : Fin 2048) :
    val_main_v33 (F := Ideal) x0 x1 x3 x5 x6 x7 x8 x9 (ix3 b s j)
      = Cert.Spec.dense2
          (Cert.Spec.hidden
            (Cert.Spec.normed (Cert.Spec.resid (fun j' => x0 (ix3 b s j')) (fun j' => x3 (ix1 j')) (fun j' => x1 (ix3 b s j')))
              (fun j' => x5 (ix1 j')) (fun j' => x6 (ix1 j')))
            (fun j' k' => x7 (ix2 j' k')) (fun k' => x8 (ix1 k')))
          (fun k' j' => x9 (ix2 k' j')) j := by
  rw [val_main_v33_apply]
  unfold Cert.Spec.dense2
  refine Finset.sum_congr rfl fun k _ => ?_
  have el : lidx_main_v33 (ix3 b s j) k = ix3 b s k :=
    funext fun a => Fin.ext (by match a with | ⟨0, _⟩ => rfl | ⟨1, _⟩ => rfl | ⟨2, _⟩ => rfl)
  have er : ridx_main_v33 (ix3 b s j) k = ix2 k j :=
    funext fun a => Fin.ext (by match a with | ⟨0, _⟩ => rfl | ⟨1, _⟩ => rfl)
  rw [el, er, hidden_at]

end stages

/-- The reference's last stage at `(b, s, j)` is the layer on row `(b, s)`. -/
theorem ref_apply (x0 x1 : FVec Ideal S4x2048x2048 .f32) (x3 x5 x6 : FVec Ideal S2048 .f32) (x7 : FVec Ideal S2048x8192 .f32)
    (x8 : FVec Ideal S8192 .f32) (x9 : FVec Ideal S8192x2048 .f32) (x10 : FVec Ideal S2048 .f32)
    (b : Fin 4) (s : Fin 2048) (j : Fin 2048) :
    val_main_v37 (F := Ideal) x0 x1 x3 x5 x6 x7 x8 x9 x10 (ix3 b s j)
      = Cert.Spec.layer (fun j' => x0 (ix3 b s j')) (fun j' => x3 (ix1 j')) (fun j' => x1 (ix3 b s j'))
          (fun j' => x5 (ix1 j')) (fun j' => x6 (ix1 j')) (fun j' k => x7 (ix2 j' k)) (fun k => x8 (ix1 k))
          (fun k j' => x9 (ix2 k j')) (fun j' => x10 (ix1 j')) j := by
  have e : idx_main_v34 (idx_main_v35 (ix3 b s j)) = ix1 j :=
    funext fun a => Fin.ext (by match a with | ⟨0, _⟩ => rfl)
  rw [val_main_v37_apply, val_main_v36_apply, val_main_v35_apply, val_main_v34_apply, e, dense2_at, resid_at]
  rfl

end Cert.RefValue

end
-- ==== Proof.Pieces.lean ====
/-
  What each branch of the body leaves in the three buffers it carries from one grid point to the next and in the
  output block, as values of the loaded blocks.

  At the first slab of a row block the body forms the residual rows `x` and their normalization `h`, keeps both,
  clears the accumulator and adds the first slab's share; at every later slab it adds that slab's share to the
  accumulator it finds, `x` and `h` staying as they are; at the last slab it also writes accumulator + bias + `x`
  to the output block.
-/
import proofs.«157771_j37125697307027_1_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

/-- First slab: the residual rows are kept. -/
theorem first_x (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x512 .bf16) (harg7 : arg7.IsWhole) (arg8 : Memref sig .tc .vmem S1x512 .f32) (harg8 : arg8.IsWhole) (arg9 : Memref sig .tc .vmem S512x2048 .bf16) (harg9 : arg9.IsWhole) (arg10 : Memref sig .tc .vmem S1x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (hc0 : cond0_0 i) (hc1 : ¬cond0_1 i)
    (x0 : Vec F S256x2048 .f32) (x1 : Vec F S256x2048 .f32) (x2 : Vec F S1x2048 .f32) (x3 : Vec F S1x2048 .f32) (x4 : Vec F S1x2048 .f32) (x5 : Vec F S2048x512 .bf16) (x6 : Vec F S1x512 .f32) (x7 : Vec F S512x2048 .bf16) (x8 : Vec F S1x2048 .f32) :
    sout0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k0_pay7 x0 x2 x1 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S256x2048) hz, View.ld_unit_zero (S := S1x2048) hz, View.ld_unit_zero (S := S2048x512) hz, View.ld_unit_zero (S := S1x512) hz, View.ld_unit_zero (S := S512x2048) hz, View.readCov_unit_zero (S := S256x2048) _ hz]

/-- First slab: the normalized rows are kept. -/
theorem first_h (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x512 .bf16) (harg7 : arg7.IsWhole) (arg8 : Memref sig .tc .vmem S1x512 .f32) (harg8 : arg8.IsWhole) (arg9 : Memref sig .tc .vmem S512x2048 .bf16) (harg9 : arg9.IsWhole) (arg10 : Memref sig .tc .vmem S1x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (hc0 : cond0_0 i) (hc1 : ¬cond0_1 i)
    (x0 : Vec F S256x2048 .f32) (x1 : Vec F S256x2048 .f32) (x2 : Vec F S1x2048 .f32) (x3 : Vec F S1x2048 .f32) (x4 : Vec F S1x2048 .f32) (x5 : Vec F S2048x512 .bf16) (x6 : Vec F S1x512 .f32) (x7 : Vec F S512x2048 .bf16) (x8 : Vec F S1x2048 .f32) :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k0_pay1 (k0_pay6 x0 x2 x1 x3 x4) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S256x2048) hz, View.ld_unit_zero (S := S1x2048) hz, View.ld_unit_zero (S := S2048x512) hz, View.ld_unit_zero (S := S1x512) hz, View.ld_unit_zero (S := S512x2048) hz, View.readCov_unit_zero (S := S256x2048) _ hz]

/-- First slab: the accumulator is cleared and the slab's share of the normalized rows added. -/
theorem first_acc (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x512 .bf16) (harg7 : arg7.IsWhole) (arg8 : Memref sig .tc .vmem S1x512 .f32) (harg8 : arg8.IsWhole) (arg9 : Memref sig .tc .vmem S512x2048 .bf16) (harg9 : arg9.IsWhole) (arg10 : Memref sig .tc .vmem S1x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (hc0 : cond0_0 i) (hc1 : ¬cond0_1 i)
    (x0 : Vec F S256x2048 .f32) (x1 : Vec F S256x2048 .f32) (x2 : Vec F S1x2048 .f32) (x3 : Vec F S1x2048 .f32) (x4 : Vec F S1x2048 .f32) (x5 : Vec F S2048x512 .bf16) (x6 : Vec F S1x512 .f32) (x7 : Vec F S512x2048 .bf16) (x8 : Vec F S1x2048 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8
      = k0_pay3 (k0_pay1 (k0_pay6 x0 x2 x1 x3 x4)) x5 x6 (k0_pay2 (F := F)) x7 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  rw [View.canon_cons_unit_zero (S := S256x2048) hz, View.readCov_unit_zero (S := S256x2048) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S256x2048) hz, View.ld_unit_zero (S := S1x2048) hz, View.ld_unit_zero (S := S2048x512) hz, View.ld_unit_zero (S := S1x512) hz, View.ld_unit_zero (S := S512x2048) hz, View.readCov_unit_zero (S := S256x2048) _ hz]

/-- A middle slab: its share is added to the accumulator found. -/
theorem mid_acc (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x512 .bf16) (harg7 : arg7.IsWhole) (arg8 : Memref sig .tc .vmem S1x512 .f32) (harg8 : arg8.IsWhole) (arg9 : Memref sig .tc .vmem S512x2048 .bf16) (harg9 : arg9.IsWhole) (arg10 : Memref sig .tc .vmem S1x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (hc0 : ¬cond0_0 i) (hc1 : ¬cond0_1 i)
    (x0 : Vec F S256x2048 .f32) (x1 : Vec F S256x2048 .f32) (x2 : Vec F S1x2048 .f32) (x3 : Vec F S1x2048 .f32) (x4 : Vec F S1x2048 .f32) (x5 : Vec F S2048x512 .bf16) (x6 : Vec F S1x512 .f32) (x7 : Vec F S512x2048 .bf16) (x8 : Vec F S1x2048 .f32) (xs0 : Vec F S256x2048 .f32) (xs1 : Vec F S256x2048 .f32) (xs2 : Vec F S256x2048 .f32) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k0_pay3 xs1 x5 x6 xs0 x7 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S256x2048) hz, View.ld_unit_zero (S := S1x2048) hz, View.ld_unit_zero (S := S2048x512) hz, View.ld_unit_zero (S := S1x512) hz, View.ld_unit_zero (S := S512x2048) hz, View.readCov_unit_zero (S := S256x2048) _ hz]

/-- The last slab: its share is added to the accumulator found, -/
theorem last_acc (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x512 .bf16) (harg7 : arg7.IsWhole) (arg8 : Memref sig .tc .vmem S1x512 .f32) (harg8 : arg8.IsWhole) (arg9 : Memref sig .tc .vmem S512x2048 .bf16) (harg9 : arg9.IsWhole) (arg10 : Memref sig .tc .vmem S1x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (hc0 : ¬cond0_0 i) (hc1 : cond0_1 i)
    (x0 : Vec F S256x2048 .f32) (x1 : Vec F S256x2048 .f32) (x2 : Vec F S1x2048 .f32) (x3 : Vec F S1x2048 .f32) (x4 : Vec F S1x2048 .f32) (x5 : Vec F S2048x512 .bf16) (x6 : Vec F S1x512 .f32) (x7 : Vec F S512x2048 .bf16) (x8 : Vec F S1x2048 .f32) (xs0 : Vec F S256x2048 .f32) (xs1 : Vec F S256x2048 .f32) (xs2 : Vec F S256x2048 .f32) :
    sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k0_pay3 xs1 x5 x6 xs0 x7 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S256x2048) hz, View.ld_unit_zero (S := S1x2048) hz, View.ld_unit_zero (S := S2048x512) hz, View.ld_unit_zero (S := S1x512) hz, View.ld_unit_zero (S := S512x2048) hz, View.readCov_unit_zero (S := S256x2048) _ hz]

/-- and the output block is that accumulator plus the bias plus the residual rows. -/
theorem last_out (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x512 .bf16) (harg7 : arg7.IsWhole) (arg8 : Memref sig .tc .vmem S1x512 .f32) (harg8 : arg8.IsWhole) (arg9 : Memref sig .tc .vmem S512x2048 .bf16) (harg9 : arg9.IsWhole) (arg10 : Memref sig .tc .vmem S1x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (hc0 : ¬cond0_0 i) (hc1 : cond0_1 i)
    (x0 : Vec F S256x2048 .f32) (x1 : Vec F S256x2048 .f32) (x2 : Vec F S1x2048 .f32) (x3 : Vec F S1x2048 .f32) (x4 : Vec F S1x2048 .f32) (x5 : Vec F S2048x512 .bf16) (x6 : Vec F S1x512 .f32) (x7 : Vec F S512x2048 .bf16) (x8 : Vec F S1x2048 .f32) (xs0 : Vec F S256x2048 .f32) (xs1 : Vec F S256x2048 .f32) (xs2 : Vec F S256x2048 .f32) :
    out0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k0_pay4 (k0_pay3 xs1 x5 x6 xs0 x7) x8 xs2 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S256x2048) hz, View.ld_unit_zero (S := S1x2048) hz, View.ld_unit_zero (S := S2048x512) hz, View.ld_unit_zero (S := S1x512) hz, View.ld_unit_zero (S := S512x2048) hz, View.readCov_unit_zero (S := S256x2048) _ hz]

end Cert.KernelIdeal.Pieces

end
-- ==== Proof.Arrays.lean ====
/-
  The arrays the kernel's region finds, by name, and the layer's rows read off them: row `r` of the residual stream,
  its normalization, its hidden row, and the array of result rows the region should leave.
-/
import proofs.«157771_j37125697307027_1_alg».proof.Proof.Gen.KernelIdeal.Frame
import proofs.«157771_j37125697307027_1_alg».proof.Proof.Spec
import Idealize.ShloMosaic.Lib.ValueIdx

noncomputable section

namespace Cert.KernelIdeal.Arr

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The input rows, [8192, 2048]. -/
abbrev inp (c : Dev nD) : FVec Ideal S8192x2048 .f32 := V m c main_v0
/-- The residual rows, [8192, 2048]. -/
abbrev res (c : Dev nD) : FVec Ideal S8192x2048 .f32 := V m c main_v1
/-- The bias added to the input, [1, 2048]. -/
abbrev bias (c : Dev nD) : FVec Ideal S1x2048 .f32 := V m c main_v2
/-- The normalization's gain, [1, 2048]. -/
abbrev gain (c : Dev nD) : FVec Ideal S1x2048 .f32 := V m c main_v3
/-- The normalization's offset, [1, 2048]. -/
abbrev offs (c : Dev nD) : FVec Ideal S1x2048 .f32 := V m c main_v4
/-- The first dense layer's weights, [2048, 8192]. -/
abbrev w1 (c : Dev nD) : FVec Ideal S2048x8192 .bf16 := V m c main_v7
/-- The first dense layer's bias, [1, 8192]. -/
abbrev b1 (c : Dev nD) : FVec Ideal S1x8192 .f32 := V m c main_v5
/-- The second dense layer's weights, [8192, 2048]. -/
abbrev w2 (c : Dev nD) : FVec Ideal S8192x2048 .bf16 := V m c main_v8
/-- The second dense layer's bias, [1, 2048]. -/
abbrev b2 (c : Dev nD) : FVec Ideal S1x2048 .f32 := V m c main_v6

/-- Row `r` of the residual stream. -/
def xrow (c : Dev nD) (r : Fin 8192) : Fin 2048 → EReal :=
  Cert.Spec.resid (fun j => inp m c (ix2 r j)) (fun j => bias m c (ix2 (0 : Fin 1) j)) (fun j => res m c (ix2 r j))

/-- Its normalization. -/
def hrow (c : Dev nD) (r : Fin 8192) : Fin 2048 → EReal :=
  Cert.Spec.normed (xrow m c r) (fun j => gain m c (ix2 (0 : Fin 1) j)) (fun j => offs m c (ix2 (0 : Fin 1) j))

/-- Its hidden row. -/
def zrow (c : Dev nD) (r : Fin 8192) : Fin 8192 → EReal :=
  Cert.Spec.hidden (hrow m c r) (fun j k => w1 m c (ix2 j k)) (fun k => b1 m c (ix2 (0 : Fin 1) k))

/-- The second layer's weights as a function of hidden unit and column. -/
def w2f (c : Dev nD) : Fin 8192 → Fin 2048 → EReal := fun k j => w2 m c (ix2 k j)

/-- The result rows: second dense layer of the hidden row, its bias, the residual row. -/
def outRows (c : Dev nD) : FVec Ideal S8192x2048 .f32 := fun i =>
  (Cert.Spec.dense2 (zrow m c ⟨(i 0).val, (i 0).isLt⟩) (w2f m c) ⟨(i 1).val, (i 1).isLt⟩
      + b2 m c (ix2 (0 : Fin 1) (⟨(i 1).val, (i 1).isLt⟩ : Fin 2048)))
    + xrow m c ⟨(i 0).val, (i 0).isLt⟩ ⟨(i 1).val, (i 1).isLt⟩

theorem outRows_apply (c : Dev nD) (r : Fin 8192) (j : Fin 2048) :
    outRows m c (ix2 r j) = (Cert.Spec.dense2 (zrow m c r) (w2f m c) j + b2 m c (ix2 (0 : Fin 1) j)) + xrow m c r j := rfl

/-- Row `p` of row block `mi`. -/
def rowOf (mi : ℕ) (p : Fin 256) : Fin 8192 := ⟨(mi * 256 + p.val) % 8192, Nat.mod_lt _ (by decide)⟩

theorem rowOf_val {mi : ℕ} (h : mi < 32) (p : Fin 256) : (rowOf mi p).val = mi * 256 + p.val :=
  Nat.mod_eq_of_lt (by have := p.isLt; omega)

end Cert.KernelIdeal.Arr

end
-- ==== Proof.Blocks.lean ====
/-
  The blocks the body loads, read at an index of the arrays the region finds. Point `t` of the grid works on row
  block `t / 16` and slab `t % 16`: the input and residual blocks are rows `(t / 16) * 256 + p`; the first layer's
  weight block is columns `(t % 16) * 512 + k'`, its bias block likewise; the second layer's weight block is rows
  `(t % 16) * 512 + k'`; the four [1, 2048] vectors are whole at every point.
-/
import proofs.«157771_j37125697307027_1_alg».proof.Proof.Arrays
import Idealize.ShloMosaic.Lib.Pipeline.Value

noncomputable section

namespace Cert.KernelIdeal.Blk

open Idealize.ShloMosaic Idealize.ShloMosaic.TcCoe Idealize.ShloMosaic.ValueIdx Idealize.SL.Sem
open Cert.KernelIdeal Cert.KernelIdeal.Gen Cert.KernelIdeal.Arr

variable (m : (ℓ : Loc nD τ sig) → Buf (Elt Ideal) ℓ)

/-! ## Where each window's block lies, decided once over the grid -/

theorem idx0 : ∀ t : Fin cfg0.N, win0_0.index t (0 : Fin 2) = t.val / 16 ∧ win0_0.index t (1 : Fin 2) = 0 :=
  (by decide +kernel : ∀ t : Fin grid0.N, win0_0.index t (0 : Fin 2) = t.val / 16 ∧ win0_0.index t (1 : Fin 2) = 0)
theorem idx1 : ∀ t : Fin cfg0.N, win0_1.index t (0 : Fin 2) = t.val / 16 ∧ win0_1.index t (1 : Fin 2) = 0 :=
  (by decide +kernel : ∀ t : Fin grid0.N, win0_1.index t (0 : Fin 2) = t.val / 16 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = t.val % 16 :=
  (by decide +kernel : ∀ t : Fin grid0.N, win0_5.index t (0 : Fin 2) = 0 ∧ win0_5.index t (1 : Fin 2) = t.val % 16)
theorem idx6 : ∀ t : Fin cfg0.N, win0_6.index t (0 : Fin 2) = 0 ∧ win0_6.index t (1 : Fin 2) = t.val % 16 :=
  (by decide +kernel : ∀ t : Fin grid0.N, win0_6.index t (0 : Fin 2) = 0 ∧ win0_6.index t (1 : Fin 2) = t.val % 16)
theorem idx7 : ∀ t : Fin cfg0.N, win0_7.index t (0 : Fin 2) = t.val % 16 ∧ win0_7.index t (1 : Fin 2) = 0 :=
  (by decide +kernel : ∀ t : Fin grid0.N, win0_7.index t (0 : Fin 2) = t.val % 16 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-- Column `k'` of slab `ii`, as a column of the [2048, 8192] weights. -/
theorem unit_val' {ii : ℕ} (h : ii < 16) (k' : Fin 512) : (Cert.Spec.unit ii k'.val).val = ii * 512 + k'.val :=
  Cert.Spec.unit_val h k'.isLt

/-! ## The blocks -/

theorem blk0 (c : Dev nD) (t : Fin cfg0.N) (p : Fin 256) (j : Fin 2048) :
    (iblk m c 0 t : FVec Ideal S256x2048 .f32) (ix2 p j) = inp m c (ix2 (rowOf (t.val / 16) p) j) := by
  have hN : t.val < 512 := lt_of_lt_of_eq t.isLt N_0
  have hi := idx0 t
  unfold iblk
  rw [View.read_apply]
  show V m c main_v0 _ = V m c main_v0 _
  refine congrArg (V m c main_v0) (funext fun a => Fin.ext ?_)
  match a with
  | ⟨0, _⟩ =>
    show win0_0.index t 0 * 256 + 1 * p.val = (rowOf (t.val / 16) p).val
    rw [hi.1, rowOf_val (by omega)]; omega
  | ⟨1, _⟩ =>
    show win0_0.index t 1 * 2048 + 1 * j.val = j.val
    rw [hi.2]; omega

theorem blk1 (c : Dev nD) (t : Fin cfg0.N) (p : Fin 256) (j : Fin 2048) :
    (iblk m c 1 t : FVec Ideal S256x2048 .f32) (ix2 p j) = res m c (ix2 (rowOf (t.val / 16) p) j) := by
  have hN : t.val < 512 := lt_of_lt_of_eq t.isLt N_0
  have hi := idx1 t
  unfold iblk
  rw [View.read_apply]
  show V m c main_v1 _ = V m c main_v1 _
  refine congrArg (V m c main_v1) (funext fun a => Fin.ext ?_)
  match a with
  | ⟨0, _⟩ =>
    show win0_1.index t 0 * 256 + 1 * p.val = (rowOf (t.val / 16) p).val
    rw [hi.1, rowOf_val (by omega)]; omega
  | ⟨1, _⟩ =>
    show win0_1.index t 1 * 2048 + 1 * j.val = j.val
    rw [hi.2]; omega

theorem blk2 (c : Dev nD) (t : Fin cfg0.N) (j : Fin 2048) :
    (iblk m c 2 t : FVec Ideal S1x2048 .f32) (ix2 (0 : Fin 1) j) = bias m c (ix2 (0 : Fin 1) j) := by
  have hN : t.val < 512 := lt_of_lt_of_eq t.isLt N_0
  have hi := idx2 t
  unfold iblk
  rw [View.read_apply]
  show V m c main_v2 _ = V m c main_v2 _
  refine congrArg (V m c main_v2) (funext fun a => Fin.ext ?_)
  match a with
  | ⟨0, _⟩ =>
    show win0_2.index t 0 * 1 + 1 * 0 = 0
    rw [hi.1]
  | ⟨1, _⟩ =>
    show win0_2.index t 1 * 2048 + 1 * j.val = j.val
    rw [hi.2]; omega

theorem blk3 (c : Dev nD) (t : Fin cfg0.N) (j : Fin 2048) :
    (iblk m c 3 t : FVec Ideal S1x2048 .f32) (ix2 (0 : Fin 1) j) = gain m c (ix2 (0 : Fin 1) j) := by
  have hN : t.val < 512 := lt_of_lt_of_eq t.isLt N_0
  have hi := idx3 t
  unfold iblk
  rw [View.read_apply]
  show V m c main_v3 _ = V m c main_v3 _
  refine congrArg (V m c main_v3) (funext fun a => Fin.ext ?_)
  match a with
  | ⟨0, _⟩ =>
    show win0_3.index t 0 * 1 + 1 * 0 = 0
    rw [hi.1]
  | ⟨1, _⟩ =>
    show win0_3.index t 1 * 2048 + 1 * j.val = j.val
    rw [hi.2]; omega

theorem blk4 (c : Dev nD) (t : Fin cfg0.N) (j : Fin 2048) :
    (iblk m c 4 t : FVec Ideal S1x2048 .f32) (ix2 (0 : Fin 1) j) = offs m c (ix2 (0 : Fin 1) j) := by
  have hN : t.val < 512 := lt_of_lt_of_eq t.isLt N_0
  have hi := idx4 t
  unfold iblk
  rw [View.read_apply]
  show V m c main_v4 _ = V m c main_v4 _
  refine congrArg (V m c main_v4) (funext fun a => Fin.ext ?_)
  match a with
  | ⟨0, _⟩ =>
    show win0_4.index t 0 * 1 + 1 * 0 = 0
    rw [hi.1]
  | ⟨1, _⟩ =>
    show win0_4.index t 1 * 2048 + 1 * j.val = j.val
    rw [hi.2]; omega

theorem blk5 (c : Dev nD) (t : Fin cfg0.N) (j : Fin 2048) (k' : Fin 512) :
    (iblk m c 5 t : FVec Ideal S2048x512 .bf16) (ix2 j k') = w1 m c (ix2 j (Cert.Spec.unit (t.val % 16) k'.val)) := by
  have hN : t.val < 512 := lt_of_lt_of_eq t.isLt N_0
  have hi := idx5 t
  unfold iblk
  rw [View.read_apply]
  show V m c main_v7 _ = V m c main_v7 _
  refine congrArg (V m c main_v7) (funext fun a => Fin.ext ?_)
  match a with
  | ⟨0, _⟩ =>
    show win0_5.index t 0 * 2048 + 1 * j.val = j.val
    rw [hi.1]; omega
  | ⟨1, _⟩ =>
    show win0_5.index t 1 * 512 + 1 * k'.val = (Cert.Spec.unit (t.val % 16) k'.val).val
    rw [hi.2, unit_val' (Nat.mod_lt _ (by decide))]; omega

theorem blk6 (c : Dev nD) (t : Fin cfg0.N) (k' : Fin 512) :
    (iblk m c 6 t : FVec Ideal S1x512 .f32) (ix2 (0 : Fin 1) k') = b1 m c (ix2 (0 : Fin 1) (Cert.Spec.unit (t.val % 16) k'.val)) := by
  have hN : t.val < 512 := lt_of_lt_of_eq t.isLt N_0
  have hi := idx6 t
  unfold iblk
  rw [View.read_apply]
  show V m c main_v5 _ = V m c main_v5 _
  refine congrArg (V m c main_v5) (funext fun a => Fin.ext ?_)
  match a with
  | ⟨0, _⟩ =>
    show win0_6.index t 0 * 1 + 1 * 0 = 0
    rw [hi.1]
  | ⟨1, _⟩ =>
    show win0_6.index t 1 * 512 + 1 * k'.val = (Cert.Spec.unit (t.val % 16) k'.val).val
    rw [hi.2, unit_val' (Nat.mod_lt _ (by decide))]; omega

theorem blk7 (c : Dev nD) (t : Fin cfg0.N) (k' : Fin 512) (j : Fin 2048) :
    (iblk m c 7 t : FVec Ideal S512x2048 .bf16) (ix2 k' j) = w2 m c (ix2 (Cert.Spec.unit (t.val % 16) k'.val) j) := by
  have hN : t.val < 512 := lt_of_lt_of_eq t.isLt N_0
  have hi := idx7 t
  unfold iblk
  rw [View.read_apply]
  show V m c main_v8 _ = V m c main_v8 _
  refine congrArg (V m c main_v8) (funext fun a => Fin.ext ?_)
  match a with
  | ⟨0, _⟩ =>
    show win0_7.index t 0 * 512 + 1 * k'.val = (Cert.Spec.unit (t.val % 16) k'.val).val
    rw [hi.1, unit_val' (Nat.mod_lt _ (by decide))]; omega
  | ⟨1, _⟩ =>
    show win0_7.index t 1 * 2048 + 1 * j.val = j.val
    rw [hi.2]; omega

theorem blk8 (c : Dev nD) (t : Fin cfg0.N) (j : Fin 2048) :
    (iblk m c 8 t : FVec Ideal S1x2048 .f32) (ix2 (0 : Fin 1) j) = b2 m c (ix2 (0 : Fin 1) j) := by
  have hN : t.val < 512 := lt_of_lt_of_eq t.isLt N_0
  have hi := idx8 t
  unfold iblk
  rw [View.read_apply]
  show V m c main_v6 _ = V m c main_v6 _
  refine congrArg (V m c main_v6) (funext fun a => Fin.ext ?_)
  match a with
  | ⟨0, _⟩ =>
    show win0_8.index t 0 * 1 + 1 * 0 = 0
    rw [hi.1]
  | ⟨1, _⟩ =>
    show win0_8.index t 1 * 2048 + 1 * j.val = j.val
    rw [hi.2]; omega

end Cert.KernelIdeal.Blk

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.Payloads.lean ====
/-
  The body's arithmetic read at an index, on the extended reals: each stored value as the row formulas of the layer
  over the loaded blocks.
-/
import proofs.«157771_j37125697307027_1_alg».proof.Proof.Gen.KernelIdeal.Skeleton
import proofs.«157771_j37125697307027_1_alg».proof.Proof.Spec
import proofs.«157771_j37125697307027_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Idealize.ShloMosaic Idealize.ShloMosaic.TcCoe Idealize.ShloMosaic.ValueIdx
open Cert.KernelIdeal Cert.KernelIdeal.Gen

/-! ## The layout operations of this body, read at an index -/

/-- A one-row array of 2048 columns, spread over the 256 rows of a block, reads its one row at the column. -/
theorem rowSpread2048_apply (v : FVec Ideal S1x2048 .f32) (p : Fin 256) (j : Fin 2048) :
    broadcastTo S256x2048 (shapeCast S1x2048 v shapeCasts_S1x2048_S1x2048) broadcasts_S1x2048_S256x2048 (ix2 p j)
      = v (ix2 (0 : Fin 1) j) := by
  rw [shapeCast_self]
  exact broadcastTo_1b_ab_apply v broadcasts_S1x2048_S256x2048 p j

/-- The same for a one-row array of 512 columns. -/
theorem rowSpread512_apply (v : FVec Ideal S1x512 .f32) (p : Fin 256) (k : Fin 512) :
    broadcastTo S256x512 (shapeCast S1x512 v shapeCasts_S1x512_S1x512) broadcasts_S1x512_S256x512 (ix2 p k)
      = v (ix2 (0 : Fin 1) k) := by
  rw [shapeCast_self]
  exact broadcastTo_1b_ab_apply v broadcasts_S1x512_S256x512 p k

/-- The residual rows of a block: input + bias + residual, entry by entry. -/
theorem pay5_apply (v26 v32 : FVec Ideal S256x2048 .f32) (v28 : FVec Ideal S1x2048 .f32) (p : Fin 256) (j : Fin 2048) :
    k0_pay5 (F := Ideal) v26 v28 v32 (ix2 p j)
      = Cert.Spec.resid (fun j' => v26 (ix2 p j')) (fun j' => v28 (ix2 (0 : Fin 1) j')) (fun j' => v32 (ix2 p j')) j := by
  unfold k0_pay5
  rw [shapeCast_self v26, shapeCast_self v32]
  show (v26 (ix2 p j)
      + broadcastTo S256x2048 (shapeCast S1x2048 v28 shapeCasts_S1x2048_S1x2048) broadcasts_S1x2048_S256x2048 (ix2 p j))
      + v32 (ix2 p j) = _
  rw [rowSpread2048_apply]
  rfl

/-- The same value as it is stored. -/
theorem pay7_apply (v26 v32 : FVec Ideal S256x2048 .f32) (v28 : FVec Ideal S1x2048 .f32) (p : Fin 256) (j : Fin 2048) :
    k0_pay7 (F := Ideal) v26 v28 v32 (ix2 p j)
      = Cert.Spec.resid (fun j' => v26 (ix2 p j')) (fun j' => v28 (ix2 (0 : Fin 1) j')) (fun j' => v32 (ix2 p j')) j := by
  unfold k0_pay7
  rw [shapeCast_self]
  exact pay5_apply v26 v32 v28 p j

/-! ## The row statistics of a block -/

/-- The column of row means of a block: the lane sum of each row, viewed as a column, divided by the row length. -/
def meanCol (x : FVec Ideal S256x2048 .f32) : FVec Ideal S256x1 .f32 :=
  divf
    (shapeCast S256x1
      (multiReduction (F := Ideal) .add [1] S256 x 0x00000000#32 reduces_S256x2048_S256 (.inl rfl) rfl)
      shapeCasts_S256_S256x1)
    (broadcast S256x1 (Scalar.ofBits (F := Ideal) .f32 0x45000000#32))

/-- Its entry in row `r` is the mean of row `r`. -/
theorem meanCol_apply (x : FVec Ideal S256x2048 .f32) (r : Fin 256) (u : Fin 1) :
    meanCol x (ix2 r u) = Cert.Spec.mean (fun k => x (ix2 r k)) := by
  unfold meanCol Cert.Spec.mean
  show Ideal.div
      (shapeCast S256x1
        (multiReduction (F := Ideal) .add [1] S256 x 0x00000000#32 reduces_S256x2048_S256 (.inl rfl) rfl)
        shapeCasts_S256_S256x1 (ix2 r u))
      (Ideal.ofBits .f32 0x45000000#32) = _
  refine congrArg (fun t => Ideal.div t Cert.Spec.width) ?_
  refine (Keepdims.shapeCast_a_a1_apply _ shapeCasts_S256_S256x1 r u).trans ?_
  exact Keepdims.laneSum_apply x 0x00000000#32 reduces_S256x2048_S256 (.inl rfl) rfl r

/-- A block with each row's mean taken off. -/
def centred (x : FVec Ideal S256x2048 .f32) : FVec Ideal S256x2048 .f32 :=
  subf x (broadcastTo S256x2048 (meanCol x) broadcasts_S256x1_S256x2048)

theorem centred_apply (x : FVec Ideal S256x2048 .f32) (r : Fin 256) (k : Fin 2048) :
    centred x (ix2 r k) = x (ix2 r k) - Cert.Spec.mean (fun k' => x (ix2 r k')) := by
  unfold centred
  show x (ix2 r k) - broadcastTo S256x2048 (meanCol x) broadcasts_S256x1_S256x2048 (ix2 r k) = _
  refine congrArg (fun t => x (ix2 r k) - t) ?_
  exact (Keepdims.broadcastTo_a1_ab_apply (meanCol x) broadcasts_S256x1_S256x2048 r k).trans (meanCol_apply x r 0)

/-- The column of row variances: the row means of the squared deviations. -/
def varCol (x : FVec Ideal S256x2048 .f32) : FVec Ideal S256x1 .f32 :=
  meanCol (mulf (centred x) (centred x))

theorem varCol_apply (x : FVec Ideal S256x2048 .f32) (r : Fin 256) (u : Fin 1) :
    varCol x (ix2 r u) = Cert.Spec.var (fun k => x (ix2 r k)) := by
  unfold varCol
  refine (meanCol_apply _ r u).trans ?_
  have e : (fun k : Fin 2048 => mulf (centred x) (centred x) (ix2 r k))
      = fun k => (x (ix2 r k) - Cert.Spec.mean (fun k' => x (ix2 r k')))
          * (x (ix2 r k) - Cert.Spec.mean (fun k' => x (ix2 r k'))) :=
    funext fun k => by
      show centred x (ix2 r k) * centred x (ix2 r k) = _
      rw [centred_apply]
  rw [e]
  rfl

/-- The column of reciprocal square roots of variance plus the small constant. -/
def rstdCol (x : FVec Ideal S256x2048 .f32) : FVec Ideal S256x1 .f32 :=
  rsqrt (addf (varCol x) (broadcast S256x1 (Scalar.ofBits (F := Ideal) .f32 0x3727C5AC#32)))

theorem rstdCol_apply (x : FVec Ideal S256x2048 .f32) (r : Fin 256) (u : Fin 1) :
    rstdCol x (ix2 r u) = Ideal.rsqrt (Cert.Spec.var (fun k => x (ix2 r k)) + Cert.Spec.eps) := by
  unfold rstdCol
  show Ideal.rsqrt (varCol x (ix2 r u) + Ideal.ofBits .f32 0x3727C5AC#32) = _
  rw [varCol_apply]

/-- The normalization of a block, entry by entry: deviation times reciprocal root, times gain, plus offset. -/
theorem normBlock_apply (x : FVec Ideal S256x2048 .f32) (g β : FVec Ideal S1x2048 .f32) (p : Fin 256) (j : Fin 2048) :
    addf
        (mulf (mulf (centred x) (broadcastTo S256x2048 (rstdCol x) broadcasts_S256x1_S256x2048))
          (broadcastTo S256x2048 (shapeCast S1x2048 g shapeCasts_S1x2048_S1x2048) broadcasts_S1x2048_S256x2048))
        (broadcastTo S256x2048 (shapeCast S1x2048 β shapeCasts_S1x2048_S1x2048) broadcasts_S1x2048_S256x2048) (ix2 p j)
      = Cert.Spec.normed (fun j' => x (ix2 p j')) (fun j' => g (ix2 (0 : Fin 1) j')) (fun j' => β (ix2 (0 : Fin 1) j')) j := by
  show (centred x (ix2 p j) * broadcastTo S256x2048 (rstdCol x) broadcasts_S256x1_S256x2048 (ix2 p j))
        * broadcastTo S256x2048 (shapeCast S1x2048 g shapeCasts_S1x2048_S1x2048) broadcasts_S1x2048_S256x2048 (ix2 p j)
      + broadcastTo S256x2048 (shapeCast S1x2048 β shapeCasts_S1x2048_S1x2048) broadcasts_S1x2048_S256x2048 (ix2 p j) = _
  rw [rowSpread2048_apply g, rowSpread2048_apply β, centred_apply,
    Keepdims.broadcastTo_a1_ab_apply (rstdCol x) broadcasts_S256x1_S256x2048 p j, rstdCol_apply]
  rfl

/-- The normalized rows of a block. -/
theorem pay6_apply (v26 v32 : FVec Ideal S256x2048 .f32) (v28 v53 v57 : FVec Ideal S1x2048 .f32) (p : Fin 256) (j : Fin 2048) :
    k0_pay6 (F := Ideal) v26 v28 v32 v53 v57 (ix2 p j)
      = Cert.Spec.normed
          (Cert.Spec.resid (fun j' => v26 (ix2 p j')) (fun j' => v28 (ix2 (0 : Fin 1) j')) (fun j' => v32 (ix2 p j')))
          (fun j' => v53 (ix2 (0 : Fin 1) j')) (fun j' => v57 (ix2 (0 : Fin 1) j')) j := by
  have e : Cert.Spec.resid (fun j' => v26 (ix2 p j')) (fun j' => v28 (ix2 (0 : Fin 1) j')) (fun j' => v32 (ix2 p j'))
      = fun j' => k0_pay5 (F := Ideal) v26 v28 v32 (ix2 p j') :=
    funext fun j' => (pay5_apply v26 v32 v28 p j').symm
  rw [e]
  unfold k0_pay6
  exact normBlock_apply (k0_pay5 (F := Ideal) v26 v28 v32) v53 v57 p j

/-- A cast to the same shape stores the value it is given. -/
theorem pay1_apply (v60 : FVec Ideal S256x2048 .f32) (i : S256x2048.Idx) : k0_pay1 (F := Ideal) v60 i = v60 i := by
  unfold k0_pay1
  rw [shapeCast_self]

/-- The cleared accumulator is zero everywhere. -/
theorem pay2_apply (i : S256x2048.Idx) : (k0_pay2 (F := Ideal)) i = 0 := by
  unfold k0_pay2
  rw [shapeCast_self]
  show Ideal.ofBits .f32 0x00000000#32 = 0
  exact Ideal.ofBits_zero_f32

/-! ## The two matrix products of a slab, read at an index

Each contracts one axis: the operands' indices at an output entry `(r, c)` and contraction coordinate `k` are `(r, k)`
and `(k, c)`, axis by axis; the contraction's sum is then re-indexed over the one coordinate. -/

theorem lhs_dense1_0 (i : S256x512.Idx) (q : dot_S256x2048_S2048x512_S256x512_1_0_0_1_n_n.contr.Idx) :
    (dot_S256x2048_S2048x512_S256x512_1_0_0_1_n_n.lhsIdx i q 0).val = (i 0).val := by
  unfold DotDims.lhsIdx
  rw [dif_neg (show ¬(0 : Fin S256x2048.rank) ∈ dot_S256x2048_S2048x512_S256x512_1_0_0_1_n_n.lhsBatch by decide),
    dif_pos (show (0 : Fin S256x2048.rank) ∈ dot_S256x2048_S2048x512_S256x512_1_0_0_1_n_n.lhsNonContracting by decide)]
  rfl
theorem lhs_dense1_1 (i : S256x512.Idx) (q : dot_S256x2048_S2048x512_S256x512_1_0_0_1_n_n.contr.Idx) :
    (dot_S256x2048_S2048x512_S256x512_1_0_0_1_n_n.lhsIdx i q 1).val = (q ⟨0, by decide⟩).val :=
  dot_S256x2048_S2048x512_S256x512_1_0_0_1_n_n.lhsIdx_val_of_single rfl i q
theorem rhs_dense1_0 (i : S256x512.Idx) (q : dot_S256x2048_S2048x512_S256x512_1_0_0_1_n_n.contr.Idx) :
    (dot_S256x2048_S2048x512_S256x512_1_0_0_1_n_n.rhsIdx i q 0).val = (q ⟨0, by decide⟩).val :=
  dot_S256x2048_S2048x512_S256x512_1_0_0_1_n_n.rhsIdx_val_of_single rfl i q
theorem rhs_dense1_1 (i : S256x512.Idx) (q : dot_S256x2048_S2048x512_S256x512_1_0_0_1_n_n.contr.Idx) :
    (dot_S256x2048_S2048x512_S256x512_1_0_0_1_n_n.rhsIdx i q 1).val = (i 1).val := by
  unfold DotDims.rhsIdx
  rw [dif_neg (show ¬(1 : Fin S2048x512.rank) ∈ dot_S256x2048_S2048x512_S256x512_1_0_0_1_n_n.rhsBatch by decide),
    dif_pos (show (1 : Fin S2048x512.rank) ∈ dot_S256x2048_S2048x512_S256x512_1_0_0_1_n_n.rhsNonContracting by decide)]
  rfl

/-- The first layer's product into the zero accumulator: row `p` of the block against column `k'` of the slab's weights. -/
theorem dense1_apply (a : FVec Ideal S256x2048 .bf16) (b : FVec Ideal S2048x512 .bf16) (p : Fin 256) (k' : Fin 512) :
    matmul (F := Ideal) dot_S256x2048_S2048x512_S256x512_1_0_0_1_n_n none a b (constant (F := Ideal) S256x512 .f32 0x00000000#32) (ix2 p k')
      = ∑ j' : Fin 2048, a (ix2 p j') * b (ix2 j' k') := by
  refine (Ideal.matmul_constant_zero_apply dot_S256x2048_S2048x512_S256x512_1_0_0_1_n_n none a b (ix2 p k')).trans ?_
  rw [← Equiv.sum_comp (contrEquiv1 dot_S256x2048_S2048x512_S256x512_1_0_0_1_n_n 2048 rfl rfl).symm]
  refine Finset.sum_congr rfl fun k _ => ?_
  have hk := contrEquiv1_symm_val dot_S256x2048_S2048x512_S256x512_1_0_0_1_n_n 2048 rfl rfl k
  have el : dot_S256x2048_S2048x512_S256x512_1_0_0_1_n_n.lhsIdx (ix2 p k') ((contrEquiv1 dot_S256x2048_S2048x512_S256x512_1_0_0_1_n_n 2048 rfl rfl).symm k) = ix2 p k :=
    funext fun ax => Fin.ext (by
      match ax with
      | ⟨0, _⟩ => exact lhs_dense1_0 _ _
      | ⟨1, _⟩ => exact (lhs_dense1_1 _ _).trans hk)
  have er : dot_S256x2048_S2048x512_S256x512_1_0_0_1_n_n.rhsIdx (ix2 p k') ((contrEquiv1 dot_S256x2048_S2048x512_S256x512_1_0_0_1_n_n 2048 rfl rfl).symm k) = ix2 k k' :=
    funext fun ax => Fin.ext (by
      match ax with
      | ⟨0, _⟩ => exact (rhs_dense1_0 _ _).trans hk
      | ⟨1, _⟩ => exact rhs_dense1_1 _ _)
  rw [el, er]

theorem lhs_dense2_0 (i : S256x2048.Idx) (q : dot_S256x512_S512x2048_S256x2048_1_0_0_1_n_n.contr.Idx) :
    (dot_S256x512_S512x2048_S256x2048_1_0_0_1_n_n.lhsIdx i q 0).val = (i 0).val := by
  unfold DotDims.lhsIdx
  rw [dif_neg (show ¬(0 : Fin S256x512.rank) ∈ dot_S256x512_S512x2048_S256x2048_1_0_0_1_n_n.lhsBatch by decide),
    dif_pos (show (0 : Fin S256x512.rank) ∈ dot_S256x512_S512x2048_S256x2048_1_0_0_1_n_n.lhsNonContracting by decide)]
  rfl
theorem lhs_dense2_1 (i : S256x2048.Idx) (q : dot_S256x512_S512x2048_S256x2048_1_0_0_1_n_n.contr.Idx) :
    (dot_S256x512_S512x2048_S256x2048_1_0_0_1_n_n.lhsIdx i q 1).val = (q ⟨0, by decide⟩).val :=
  dot_S256x512_S512x2048_S256x2048_1_0_0_1_n_n.lhsIdx_val_of_single rfl i q
theorem rhs_dense2_0 (i : S256x2048.Idx) (q : dot_S256x512_S512x2048_S256x2048_1_0_0_1_n_n.contr.Idx) :
    (dot_S256x512_S512x2048_S256x2048_1_0_0_1_n_n.rhsIdx i q 0).val = (q ⟨0, by decide⟩).val :=
  dot_S256x512_S512x2048_S256x2048_1_0_0_1_n_n.rhsIdx_val_of_single rfl i q
theorem rhs_dense2_1 (i : S256x2048.Idx) (q : dot_S256x512_S512x2048_S256x2048_1_0_0_1_n_n.contr.Idx) :
    (dot_S256x512_S512x2048_S256x2048_1_0_0_1_n_n.rhsIdx i q 1).val = (i 1).val := by
  unfold DotDims.rhsIdx
  rw [dif_neg (show ¬(1 : Fin S512x2048.rank) ∈ dot_S256x512_S512x2048_S256x2048_1_0_0_1_n_n.rhsBatch by decide),
    dif_pos (show (1 : Fin S512x2048.rank) ∈ dot_S256x512_S512x2048_S256x2048_1_0_0_1_n_n.rhsNonContracting by decide)]
  rfl

/-- The second layer's product into the zero accumulator: hidden row `p` against column `j` of the slab's weights. -/
theorem dense2_apply (a : FVec Ideal S256x512 .bf16) (b : FVec Ideal S512x2048 .bf16) (p : Fin 256) (j : Fin 2048) :
    matmul (F := Ideal) dot_S256x512_S512x2048_S256x2048_1_0_0_1_n_n none a b (constant (F := Ideal) S256x2048 .f32 0x00000000#32) (ix2 p j)
      = ∑ k' : Fin 512, a (ix2 p k') * b (ix2 k' j) := by
  refine (Ideal.matmul_constant_zero_apply dot_S256x512_S512x2048_S256x2048_1_0_0_1_n_n none a b (ix2 p j)).trans ?_
  rw [← Equiv.sum_comp (contrEquiv1 dot_S256x512_S512x2048_S256x2048_1_0_0_1_n_n 512 rfl rfl).symm]
  refine Finset.sum_congr rfl fun k _ => ?_
  have hk := contrEquiv1_symm_val dot_S256x512_S512x2048_S256x2048_1_0_0_1_n_n 512 rfl rfl k
  have el : dot_S256x512_S512x2048_S256x2048_1_0_0_1_n_n.lhsIdx (ix2 p j) ((contrEquiv1 dot_S256x512_S512x2048_S256x2048_1_0_0_1_n_n 512 rfl rfl).symm k) = ix2 p k :=
    funext fun ax => Fin.ext (by
      match ax with
      | ⟨0, _⟩ => exact lhs_dense2_0 _ _
      | ⟨1, _⟩ => exact (lhs_dense2_1 _ _).trans hk)
  have er : dot_S256x512_S512x2048_S256x2048_1_0_0_1_n_n.rhsIdx (ix2 p j) ((contrEquiv1 dot_S256x512_S512x2048_S256x2048_1_0_0_1_n_n 512 rfl rfl).symm k) = ix2 k j :=
    funext fun ax => Fin.ext (by
      match ax with
      | ⟨0, _⟩ => exact (rhs_dense2_0 _ _).trans hk
      | ⟨1, _⟩ => exact rhs_dense2_1 _ _)
  rw [el, er]

/-- One slab's update of the accumulator: the accumulator found plus, over the slab's 512 hidden units, the rectified
    first-layer value times the second layer's weight. -/
theorem pay3_apply (v3 v14 : FVec Ideal S256x2048 .f32) (v5 : FVec Ideal S2048x512 .bf16) (v8 : FVec Ideal S1x512 .f32)
    (v16 : FVec Ideal S512x2048 .bf16) (p : Fin 256) (j : Fin 2048) :
    k0_pay3 (F := Ideal) v3 v5 v8 v14 v16 (ix2 p j)
      = v14 (ix2 p j) + ∑ k' : Fin 512,
          max ((∑ j' : Fin 2048, v3 (ix2 p j') * v5 (ix2 j' k')) + v8 (ix2 (0 : Fin 1) k')) Cert.Spec.floor0 * v16 (ix2 k' j) := by
  unfold k0_pay3
  rw [shapeCast_self v5, shapeCast_self v16, shapeCast_self (s := S256x2048)]
  -- the sum onto the accumulator, entry by entry
  refine congrArg (fun t => v14 (ix2 p j) + t) ?_
  refine (dense2_apply _ v16 p j).trans ?_
  refine Finset.sum_congr rfl fun k' _ => ?_
  refine congrArg (fun t => t * v16 (ix2 k' j)) ?_
  -- the hidden unit: the narrowing of the format is the identity on extended reals, the splat of the zero word is the floor
  show max
      (matmul (F := Ideal) dot_S256x2048_S2048x512_S256x512_1_0_0_1_n_n none (truncf .bf16 v3 bitsLt_bf16_f32) v5
          (constant (F := Ideal) S256x512 .f32 0x00000000#32) (ix2 p k')
        + broadcastTo S256x512 (shapeCast S1x512 v8 shapeCasts_S1x512_S1x512) broadcasts_S1x512_S256x512 (ix2 p k'))
      (Ideal.ofBits .f32 0x00000000#32) = _
  rw [rowSpread512_apply]
  refine congrArg (fun t => max (t + v8 (ix2 (0 : Fin 1) k')) Cert.Spec.floor0) ?_
  exact dense1_apply (truncf .bf16 v3 bitsLt_bf16_f32) v5 p k'

/-- The output block: accumulator + bias + residual rows. -/
theorem pay4_apply (v26 v31 : FVec Ideal S256x2048 .f32) (v27 : FVec Ideal S1x2048 .f32) (p : Fin 256) (j : Fin 2048) :
    k0_pay4 (F := Ideal) v26 v27 v31 (ix2 p j) = (v26 (ix2 p j) + v27 (ix2 (0 : Fin 1) j)) + v31 (ix2 p j) := by
  unfold k0_pay4
  show (v26 (ix2 p j)
      + broadcastTo S256x2048 (shapeCast S1x2048 v27 shapeCasts_S1x2048_S1x2048) broadcasts_S1x2048_S256x2048 (ix2 p j))
      + v31 (ix2 p j) = _
  rw [rowSpread2048_apply]

end Cert.KernelIdeal.Pay

end
-- ==== Proof.Invariant.lean ====
/-
  What the three carried buffers hold after each grid point. Point `t` works on row block `t / 16` and slab `t % 16`:
  after it the residual rows and the normalized rows of the block are in place, and the accumulator holds the first
  `t % 16 + 1` slabs' shares of the second dense layer; after the last slab the output block is the result rows.
-/
import proofs.«157771_j37125697307027_1_alg».proof.Proof.Pieces
import proofs.«157771_j37125697307027_1_alg».proof.Proof.Arrays
import proofs.«157771_j37125697307027_1_alg».proof.Proof.Blocks
import proofs.«157771_j37125697307027_1_alg».proof.Proof.Payloads

noncomputable section

namespace Cert.KernelIdeal.Inv

open Idealize.ShloMosaic Idealize.ShloMosaic.TcCoe Idealize.ShloMosaic.ValueIdx Idealize.SL.Sem
open Cert.KernelIdeal Cert.KernelIdeal.Gen Cert.KernelIdeal.Arr

variable (m : (ℓ : Loc nD τ sig) → Buf (Elt Ideal) ℓ)

/-! ## The four buffers after a point, by name -/

/-- The output's staging buffer after point `n`. -/
abbrev outAt (c : Dev nD) (n : ℕ) (h : n < cfg0.N) : FVec Ideal S256x2048 .f32 := (outsAt0 m c n h).1
/-- The accumulator after point `n`. -/
abbrev accAt (c : Dev nD) (n : ℕ) (h : n < cfg0.N) : FVec Ideal S256x2048 .f32 := (outsAt0 m c n h).2.1
/-- The kept normalized rows after point `n`. -/
abbrev hAt (c : Dev nD) (n : ℕ) (h : n < cfg0.N) : FVec Ideal S256x2048 .f32 := (outsAt0 m c n h).2.2.1
/-- The kept residual rows after point `n`. -/
abbrev xAt (c : Dev nD) (n : ℕ) (h : n < cfg0.N) : FVec Ideal S256x2048 .f32 := (outsAt0 m c n h).2.2.2

/-- The input blocks of a point, by name and literal type. -/
abbrev bIn (c : Dev nD) (t : Fin cfg0.N) : FVec Ideal S256x2048 .f32 := iblk m c 0 t
abbrev bRes (c : Dev nD) (t : Fin cfg0.N) : FVec Ideal S256x2048 .f32 := iblk m c 1 t
abbrev bBias (c : Dev nD) (t : Fin cfg0.N) : FVec Ideal S1x2048 .f32 := iblk m c 2 t
abbrev bGain (c : Dev nD) (t : Fin cfg0.N) : FVec Ideal S1x2048 .f32 := iblk m c 3 t
abbrev bOffs (c : Dev nD) (t : Fin cfg0.N) : FVec Ideal S1x2048 .f32 := iblk m c 4 t
abbrev bW1 (c : Dev nD) (t : Fin cfg0.N) : FVec Ideal S2048x512 .bf16 := iblk m c 5 t
abbrev bB1 (c : Dev nD) (t : Fin cfg0.N) : FVec Ideal S1x512 .f32 := iblk m c 6 t
abbrev bW2 (c : Dev nD) (t : Fin cfg0.N) : FVec Ideal S512x2048 .bf16 := iblk m c 7 t
abbrev bB2 (c : Dev nD) (t : Fin cfg0.N) : FVec Ideal S1x2048 .f32 := iblk m c 8 t

/-! ## One point's effect, case by case -/

/-- At a block's first slab the residual rows are formed from the point's blocks. -/
theorem x_first (c : Dev nD) (t : Fin cfg0.N) (h0 : t.val % 16 = 0) :
    xAt m c t.val t.isLt = k0_pay7 (bIn m c t) (bBias m c t) (bRes m c t) := by
  have h1 : ¬t.val % 16 = 15 := by omega
  show (outsAt0 m c t.val t.isLt).2.2.2 = _
  rw [outsAt0_A m c t h0 h1]
  dsimp only
  exact Pieces.first_x c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)

/-- … and so are the normalized rows, -/
theorem h_first (c : Dev nD) (t : Fin cfg0.N) (h0 : t.val % 16 = 0) :
    hAt m c t.val t.isLt = k0_pay1 (k0_pay6 (bIn m c t) (bBias m c t) (bRes m c t) (bGain m c t) (bOffs m c t)) := by
  have h1 : ¬t.val % 16 = 15 := by omega
  show (outsAt0 m c t.val t.isLt).2.2.1 = _
  rw [outsAt0_A m c t h0 h1]
  dsimp only
  exact Pieces.first_h c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)

/-- … and the accumulator is the first slab's share added to zero. -/
theorem acc_first (c : Dev nD) (t : Fin cfg0.N) (h0 : t.val % 16 = 0) :
    accAt m c t.val t.isLt
      = k0_pay3 (k0_pay1 (k0_pay6 (bIn m c t) (bBias m c t) (bRes m c t) (bGain m c t) (bOffs m c t)))
          (bW1 m c t) (bB1 m c t) (k0_pay2 (F := Ideal)) (bW2 m c t) := by
  have h1 : ¬t.val % 16 = 15 := by omega
  show (outsAt0 m c t.val t.isLt).2.1 = _
  rw [outsAt0_A m c t h0 h1]
  dsimp only
  exact Pieces.first_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)

/-- At a later slab the residual rows stay, -/
theorem x_step (c : Dev nD) (t : Fin cfg0.N) (h0 : ¬t.val % 16 = 0) :
    xAt m c t.val t.isLt = xAt m c (t.val - 1) (Nat.lt_of_le_of_lt (Nat.sub_le _ _) t.isLt) := by
  show (outsAt0 m c t.val t.isLt).2.2.2 = _
  by_cases h1 : t.val % 16 = 15
  · rw [outsAt0_C m c t h0 h1]; rfl
  · rw [outsAt0_B m c t h0 h1]; rfl

/-- the normalized rows stay, -/
theorem h_step (c : Dev nD) (t : Fin cfg0.N) (h0 : ¬t.val % 16 = 0) :
    hAt m c t.val t.isLt = hAt m c (t.val - 1) (Nat.lt_of_le_of_lt (Nat.sub_le _ _) t.isLt) := by
  show (outsAt0 m c t.val t.isLt).2.2.1 = _
  by_cases h1 : t.val % 16 = 15
  · rw [outsAt0_C m c t h0 h1]; rfl
  · rw [outsAt0_B m c t h0 h1]; rfl

/-- and the slab's share is added to the accumulator. -/
theorem acc_step (c : Dev nD) (t : Fin cfg0.N) (h0 : ¬t.val % 16 = 0) :
    accAt m c t.val t.isLt
      = k0_pay3 (hAt m c (t.val - 1) (Nat.lt_of_le_of_lt (Nat.sub_le _ _) t.isLt)) (bW1 m c t) (bB1 m c t)
          (accAt m c (t.val - 1) (Nat.lt_of_le_of_lt (Nat.sub_le _ _) t.isLt)) (bW2 m c t) := by
  show (outsAt0 m c t.val t.isLt).2.1 = _
  by_cases h1 : t.val % 16 = 15
  · rw [outsAt0_C m c t h0 h1]
    dsimp only
    exact Pieces.last_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_B m c t h0 h1]
    dsimp only
    exact Pieces.mid_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- At a block's last slab the output block is the new accumulator plus the bias plus the residual rows. -/
theorem out_at_last (c : Dev nD) (t : Fin cfg0.N) (h1 : t.val % 16 = 15) :
    outAt m c t.val t.isLt
      = k0_pay4 (accAt m c t.val t.isLt) (bB2 m c t) (xAt m c (t.val - 1) (Nat.lt_of_le_of_lt (Nat.sub_le _ _) t.isLt)) := by
  have h0 : ¬t.val % 16 = 0 := by omega
  rw [acc_step m c t h0]
  show (outsAt0 m c t.val t.isLt).1 = _
  rw [outsAt0_C m c t h0 h1]
  dsimp only
  exact Pieces.last_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-! ## The point's blocks are rows of the arrays -/

/-- The residual rows formed from the point's blocks are rows of the residual stream. -/
theorem resid_blocks (c : Dev nD) (t : Fin cfg0.N) (p : Fin 256) :
    Cert.Spec.resid (fun j' => bIn m c t (ix2 p j')) (fun j' => bBias m c t (ix2 (0 : Fin 1) j')) (fun j' => bRes m c t (ix2 p j'))
      = xrow m c (rowOf (t.val / 16) p) := by
  unfold xrow
  simp only [Blk.blk0 m c t, Blk.blk1 m c t, Blk.blk2 m c t]

/-- Their normalization with the point's gain and offset blocks is the row's normalization. -/
theorem normed_blocks (c : Dev nD) (t : Fin cfg0.N) (p : Fin 256) :
    Cert.Spec.normed
        (Cert.Spec.resid (fun j' => bIn m c t (ix2 p j')) (fun j' => bBias m c t (ix2 (0 : Fin 1) j')) (fun j' => bRes m c t (ix2 p j')))
        (fun j' => bGain m c t (ix2 (0 : Fin 1) j')) (fun j' => bOffs m c t (ix2 (0 : Fin 1) j'))
      = hrow m c (rowOf (t.val / 16) p) := by
  unfold hrow
  rw [resid_blocks]
  simp only [Blk.blk3 m c t, Blk.blk4 m c t]

/-- Over the point's weight and bias blocks, a block of normalized rows gives the point's slab of the second layer. -/
theorem slab_blocks (c : Dev nD) (t : Fin cfg0.N) (p : Fin 256) (j : Fin 2048) (hv : FVec Ideal S256x2048 .f32)
    (hh : ∀ j' : Fin 2048, hv (ix2 p j') = hrow m c (rowOf (t.val / 16) p) j') :
    (∑ k' : Fin 512,
        max ((∑ j' : Fin 2048, hv (ix2 p j') * bW1 m c t (ix2 j' k')) + bB1 m c t (ix2 (0 : Fin 1) k')) Cert.Spec.floor0
          * bW2 m c t (ix2 k' j))
      = Cert.Spec.slab (zrow m c (rowOf (t.val / 16) p)) (w2f m c) j (t.val % 16) := by
  unfold Cert.Spec.slab zrow Cert.Spec.hidden w2f
  simp only [hh, Blk.blk5 m c t, Blk.blk6 m c t, Blk.blk7 m c t]

/-! ## The invariant -/

/-- After point `n`: the block's residual rows, its normalized rows, and the first `n % 16 + 1` slabs accumulated. -/
def Holds (c : Dev nD) (n : ℕ) (h : n < cfg0.N) : Prop :=
  (∀ (p : Fin 256) (j : Fin 2048), xAt m c n h (ix2 p j) = xrow m c (rowOf (n / 16) p) j)
  ∧ (∀ (p : Fin 256) (j : Fin 2048), hAt m c n h (ix2 p j) = hrow m c (rowOf (n / 16) p) j)
  ∧ (∀ (p : Fin 256) (j : Fin 2048),
      accAt m c n h (ix2 p j) = Cert.Spec.accum (zrow m c (rowOf (n / 16) p)) (w2f m c) j (n % 16 + 1))

theorem first_state (c : Dev nD) (t : Fin cfg0.N) (h0 : t.val % 16 = 0) : Holds m c t.val t.isLt := by
  have hh : ∀ (p : Fin 256) (j' : Fin 2048),
      k0_pay1 (F := Ideal) (k0_pay6 (bIn m c t) (bBias m c t) (bRes m c t) (bGain m c t) (bOffs m c t)) (ix2 p j')
        = hrow m c (rowOf (t.val / 16) p) j' := fun p j' => by
    refine (Pay.pay1_apply _ _).trans ?_
    refine (Pay.pay6_apply (bIn m c t) (bRes m c t) (bBias m c t) (bGain m c t) (bOffs m c t) p j').trans ?_
    rw [normed_blocks]
  refine ⟨fun p j => ?_, fun p j => ?_, fun p j => ?_⟩
  · rw [x_first m c t h0]
    refine (Pay.pay7_apply (bIn m c t) (bRes m c t) (bBias m c t) p j).trans ?_
    rw [resid_blocks]
  · rw [h_first m c t h0]
    exact hh p j
  · rw [acc_first m c t h0]
    refine (Pay.pay3_apply _ _ _ _ _ p j).trans ?_
    rw [Pay.pay2_apply, zero_add, h0, Cert.Spec.accum_succ, Cert.Spec.accum_zero, zero_add]
    have hs := slab_blocks m c t p j _ (hh p)
    rw [h0] at hs
    exact hs

theorem step_state (c : Dev nD) (t : Fin cfg0.N) (h0 : ¬t.val % 16 = 0)
    (ih : Holds m c (t.val - 1) (Nat.lt_of_le_of_lt (Nat.sub_le _ _) t.isLt)) : Holds m c t.val t.isLt := by
  have hN : t.val < 512 := lt_of_lt_of_eq t.isLt N_0
  have hd : (t.val - 1) / 16 = t.val / 16 := by omega
  have hm : (t.val - 1) % 16 + 1 = t.val % 16 := by omega
  obtain ⟨ihx, ihh, iha⟩ := ih
  refine ⟨fun p j => ?_, fun p j => ?_, fun p j => ?_⟩
  · rw [x_step m c t h0, ihx p j, hd]
  · rw [h_step m c t h0, ihh p j, hd]
  · rw [acc_step m c t h0]
    refine (Pay.pay3_apply _ _ _ _ _ p j).trans ?_
    rw [iha p j, hd, hm, Cert.Spec.accum_succ]
    refine congrArg (_ + ·) ?_
    exact slab_blocks m c t p j _ (fun j' => by rw [ihh p j', hd])

/-- The invariant holds after every point, by induction along the grid. -/
theorem state (c : Dev nD) : ∀ (n : ℕ) (h : n < cfg0.N), Holds m c n h
  | 0, h => first_state m c ⟨0, h⟩ rfl
  | n + 1, h => by
    by_cases h0 : (n + 1) % 16 = 0
    · exact first_state m c ⟨n + 1, h⟩ h0
    · exact step_state m c ⟨n + 1, h⟩ h0 (state c n (Nat.lt_of_succ_lt h))

/-- After the last slab of a row block the output's staging buffer holds the block's result rows. -/
theorem out_last (c : Dev nD) (t : Fin cfg0.N) (h15 : t.val % 16 = 15) (p : Fin 256) (j : Fin 2048) :
    ((outsAt0 m c t.val t.isLt).1 : FVec Ideal S256x2048 .f32) (ix2 p j)
      = Arr.outRows m c (ix2 (Arr.rowOf (t.val / 16) p) j) := by
  have hN : t.val < 512 := lt_of_lt_of_eq t.isLt N_0
  have hd : (t.val - 1) / 16 = t.val / 16 := by omega
  obtain ⟨_, _, hacc⟩ := state m c t.val t.isLt
  obtain ⟨hx, _, _⟩ := state m c (t.val - 1) (Nat.lt_of_le_of_lt (Nat.sub_le _ _) t.isLt)
  show outAt m c t.val t.isLt (ix2 p j) = _
  rw [out_at_last m c t h15]
  refine (Pay.pay4_apply _ _ _ p j).trans ?_
  rw [hacc p j, hx p j, hd, h15, outRows_apply, Cert.Spec.accum_full]
  simp only [Blk.blk8 m c t]

end Cert.KernelIdeal.Inv

end
-- ==== Proof.Final.lean ====
/-
  The region's result array and the program's result. Each of the 32 row blocks is written back once, after its last
  slab, with the block's result rows; the blocks tile the [8192, 2048] array, so it ends as the array of result rows,
  and the program's result is that array viewed as [4, 2048, 2048].
-/
import proofs.«157771_j37125697307027_1_alg».proof.Proof.Invariant
import Idealize.ShloMosaic.Lib.Pipeline.Value
import Idealize.ShloMosaic.Lib.StableHlo.Run

noncomputable section

namespace Cert.KernelIdeal.Result

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The output window's block at grid point `t`: row block `t / 16`, and the one column block. -/
theorem outIndex : ∀ t : Fin cfg0.N, win0_9.index t (0 : Fin 2) = t.val / 16 ∧ win0_9.index t (1 : Fin 2) = 0 :=
  (by decide +kernel : ∀ t : Fin grid0.N, _)

/-- A [256, 2048] block `X` whose row `p` is row `(t / 16) * 256 + p` of the array `G` is what the output window reads
    of `G` at point `t`: an element of the block sits in the array at block index × block size + its own coordinate. -/
theorem cut_eq_read (t : Fin cfg0.N) (X : FVec Ideal S256x2048 .f32) (G : FVec Ideal S8192x2048 .f32)
    (h : ∀ (p : Fin 256) (j : Fin 2048), X (ix2 p j) = G (ix2 (Arr.rowOf (t.val / 16) p) j)) :
    (cfg0.win 9).cut (grid0.coords t) X = ((cfg0.win 9).blk t).view.read (Elt Ideal) G := by
  obtain ⟨e0, e1⟩ := outIndex t
  have hN : cfg0.N = 512 := N_0
  have hlt : t.val / 16 < 32 := by have := t.isLt; omega
  funext y
  have hy0 : (y 0).val < 256 := (y 0).isLt
  have hy1 : (y 1).val < 2048 := (y 1).isLt
  show X ((cfg0.win 9).xinj (grid0.coords t) y) = G (((cfg0.win 9).blk t).view.emb y)
  have eL : (cfg0.win 9).xinj (grid0.coords t) y = ix2 (⟨(y 0).val, hy0⟩ : Fin 256) (⟨(y 1).val, hy1⟩ : Fin 2048) := by
    funext a
    match a with
    | ⟨0, _⟩ => rfl
    | ⟨1, _⟩ => rfl
  have eR : ((cfg0.win 9).blk t).view.emb y
      = ix2 (Arr.rowOf (t.val / 16) (⟨(y 0).val, hy0⟩ : Fin 256)) (⟨(y 1).val, hy1⟩ : Fin 2048) := by
    funext a
    apply Fin.ext
    match a with
    | ⟨0, _⟩ =>
      show win0_9.index t (0 : Fin 2) * 256 + 1 * (y 0).val = (Arr.rowOf (t.val / 16) (⟨(y 0).val, hy0⟩ : Fin 256)).val
      rw [e0, Arr.rowOf_val hlt]
      show t.val / 16 * 256 + 1 * (y 0).val = t.val / 16 * 256 + (y 0).val
      omega
    | ⟨1, _⟩ =>
      show win0_9.index t (1 : Fin 2) * 2048 + 1 * (y 1).val = (y 1).val
      rw [e1]
      omega
  rw [eL, eR]
  exact h _ _

/-- What a flushing point writes back is its block of the result rows. -/
theorem flushed_eq (c : Dev nD) (t : Fin cfg0.N) (hf : (cfg0.win 9).flush t = true) :
    (dats m 0 c).flushed 9 t = ((cfg0.win 9).blk t).view.read (Elt Ideal) (Arr.outRows m c) := by
  have h15 : t.val % 16 = 15 := (flush0_9 t).mp hf
  show (cfg0.win 9).cut (grid0.coords t) ((dats m 0 c).after 9 t) = _
  rw [after0_9]
  exact cut_eq_read t _ (Arr.outRows m c) fun p j => Inv.out_last m c t h15 p j

/-- An index of the array is in point `t`'s block iff each coordinate is in the block's range on its axis. -/
theorem mem_blk (t : Fin cfg0.N) (i : S8192x2048.Idx) :
    i ∈ ((cfg0.win 9).blk t).view.set ↔ ∀ a : Fin 2, win0_9.index t a * S256x2048.size a ≤ (i a).val
      ∧ (i a).val < win0_9.index t a * S256x2048.size a + S256x2048.size a := by
  show i ∈ ((View.whole main_v9).slice (win0_9.rect t)).set ↔ _
  rw [View.set_slice_whole, Rect.mem_set_unit]
  exact Iff.rfl

/-- Every index of the array lies in the block written back after the last slab of its row block. -/
theorem cover (i : S8192x2048.Idx) :
    ∃ t : Fin cfg0.N, (cfg0.win 9).flush t = true ∧ i ∈ ((cfg0.win 9).blk t).view.set := by
  have hN : cfg0.N = 512 := N_0
  have hi0 : (i 0).val < 8192 := (i 0).isLt
  have hi1 : (i 1).val < 2048 := (i 1).isLt
  have ht : 16 * ((i 0).val / 256) + 15 < cfg0.N := by omega
  refine ⟨⟨16 * ((i 0).val / 256) + 15, ht⟩, (flush0_9 _).mpr (by show (16 * ((i 0).val / 256) + 15) % 16 = 15; omega), ?_⟩
  obtain ⟨e0, e1⟩ := outIndex ⟨16 * ((i 0).val / 256) + 15, ht⟩
  have e0' : win0_9.index ⟨16 * ((i 0).val / 256) + 15, ht⟩ (0 : Fin 2) = (16 * ((i 0).val / 256) + 15) / 16 := e0
  rw [mem_blk]
  intro a
  match a with
  | ⟨0, _⟩ =>
    show win0_9.index ⟨16 * ((i 0).val / 256) + 15, ht⟩ (0 : Fin 2) * 256 ≤ (i 0).val
      ∧ (i 0).val < win0_9.index ⟨16 * ((i 0).val / 256) + 15, ht⟩ (0 : Fin 2) * 256 + 256
    rw [e0']
    omega
  | ⟨1, _⟩ =>
    show win0_9.index ⟨16 * ((i 0).val / 256) + 15, ht⟩ (1 : Fin 2) * 2048 ≤ (i 1).val
      ∧ (i 1).val < win0_9.index ⟨16 * ((i 0).val / 256) + 15, ht⟩ (1 : Fin 2) * 2048 + 2048
    rw [e1]
    omega

/-- The region leaves the result rows in its output array. -/
theorem final9 (c : Dev nD) : (dats m 0 c).arrAt 9 cfg0.N = Arr.outRows m c := by
  exact (dats m 0 c).arrAt_eq_of_cover 9 (Arr.outRows m c) (flushed_eq m c) cover

/-- The program's run: the result is the result rows viewed as [4, 2048, 2048]; the arguments are unchanged. -/
theorem run : θ_run defs (onTc (τ := τ) (main (F := Ideal))) ⟨m, fun _ => 0, ρ⟩ (fun r => ∀ c : Dev nD,
      r.2.mem ((c.tc : Thread nD τ).loc main_v10)
        = shapeCast S4x2048x2048 (Arr.outRows m c) shapeCasts_S8192x2048_S4x2048x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run defs _ _).mono (fun r h c => ⟨?_,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩) (run_main m ρ)
  -- the result: the reshape after the region, applied to the region's output array
  refine ((h c).2 main_v10 (Pipeline.mem_restRefs_of main_v10 (by decide) (by decide))).trans ?_
  unfold Pipeline.afterTail₀
  show StableHlo.after hostOps1 _ (Proc.devRef .tc main_v10) = _
  after_results
  have e : Pipeline.withArrays (cfgs 0).spec c (V0 m c) (fun w => (dats m 0 c).arrAt w (cfgs 0).N) (Proc.devRef .tc main_v9)
      = Arr.outRows m c :=
    (Pipeline.withArrays_arr spec0 launch0.win.arr_inj c _ _ 9).trans (final9 m c)
  rw [e]
  rfl

end Cert.KernelIdeal.Result

end
-- ==== Proof.HostSide.lean ====
/-
  The arrays the region finds are views of the program's arguments: the input and residual arrays with their two
  leading axes merged (row `b * 2048 + s` is row `(b, s)`), the five vectors as one-row matrices, and the two weight
  matrices after a change of float format, which on the extended reals changes nothing.
-/
import proofs.«157771_j37125697307027_1_alg».proof.Proof.Arrays
import Idealize.ShloMosaic.Lib.Pipeline.Value
import Idealize.ShloMosaic.Lib.StableHlo.Run

noncomputable section

namespace Cert.KernelIdeal.HostSide

open Idealize.ShloMosaic Idealize.ShloMosaic.TcCoe Idealize.ShloMosaic.ValueIdx Idealize.SL.Sem
open Cert.KernelIdeal Cert.KernelIdeal.Gen Cert.KernelIdeal.Arr

variable (m : (ℓ : Loc nD τ sig) → Buf (Elt Ideal) ℓ)

/-- Row `(b, s)` of a [4, 2048, 2048] array as a row of its [8192, 2048] view. -/
def rowBS (b : Fin 4) (s : Fin 2048) : Fin 8192 := ⟨b.val * 2048 + s.val, by have := b.isLt; have := s.isLt; omega⟩

theorem inp_eq (c : Dev nD) :
    inp m c = shapeCast S8192x2048 (m ((c : Thread nD τ).loc main_arg0)) shapeCasts_S4x2048x2048_S8192x2048 := by
  show StableHlo.after hostOps0 (fun b => m (c, b)) (Proc.devRef .tc main_v0) = _
  after_results; rfl

theorem inp_apply (c : Dev nD) (b : Fin 4) (s : Fin 2048) (j : Fin 2048) :
    inp m c (ix2 (rowBS b s) j) = (m ((c : Thread nD τ).loc main_arg0)) (ix3 b s j) := by
  rw [inp_eq]
  refine shapeCast_apply _ _ _ _ ?_
  show (S4x2048x2048.rowMajor (ix3 b s j)).val = (S8192x2048.rowMajor (ix2 (rowBS b s) j)).val
  rw [Shape.rowMajor_val_three, Shape.rowMajor_val_two]
  rfl

theorem res_eq (c : Dev nD) :
    res m c = shapeCast S8192x2048 (m ((c : Thread nD τ).loc main_arg1)) shapeCasts_S4x2048x2048_S8192x2048 := by
  show StableHlo.after hostOps0 (fun b => m (c, b)) (Proc.devRef .tc main_v1) = _
  after_results; rfl

theorem res_apply (c : Dev nD) (b : Fin 4) (s : Fin 2048) (j : Fin 2048) :
    res m c (ix2 (rowBS b s) j) = (m ((c : Thread nD τ).loc main_arg1)) (ix3 b s j) := by
  rw [res_eq]
  refine shapeCast_apply _ _ _ _ ?_
  show (S4x2048x2048.rowMajor (ix3 b s j)).val = (S8192x2048.rowMajor (ix2 (rowBS b s) j)).val
  rw [Shape.rowMajor_val_three, Shape.rowMajor_val_two]
  rfl

theorem bias_eq (c : Dev nD) :
    bias m c = shapeCast S1x2048 (m ((c : Thread nD τ).loc main_arg3)) shapeCasts_S2048_S1x2048 := by
  show StableHlo.after hostOps0 (fun b => m (c, b)) (Proc.devRef .tc main_v2) = _
  after_results; rfl

theorem bias_apply (c : Dev nD) (j : Fin 2048) :
    bias m c (ix2 (0 : Fin 1) j) = (m ((c : Thread nD τ).loc main_arg3)) (ix1 j) := by
  rw [bias_eq]
  refine shapeCast_apply _ _ _ _ ?_
  show (S2048.rowMajor (ix1 j)).val = (S1x2048.rowMajor (ix2 (0 : Fin 1) j)).val
  rw [Shape.rowMajor_val_one, Shape.rowMajor_val_two]
  show j.val = 0 * 2048 + j.val
  omega

theorem gain_eq (c : Dev nD) :
    gain m c = shapeCast S1x2048 (m ((c : Thread nD τ).loc main_arg5)) shapeCasts_S2048_S1x2048 := by
  show StableHlo.after hostOps0 (fun b => m (c, b)) (Proc.devRef .tc main_v3) = _
  after_results; rfl

theorem gain_apply (c : Dev nD) (j : Fin 2048) :
    gain m c (ix2 (0 : Fin 1) j) = (m ((c : Thread nD τ).loc main_arg5)) (ix1 j) := by
  rw [gain_eq]
  refine shapeCast_apply _ _ _ _ ?_
  show (S2048.rowMajor (ix1 j)).val = (S1x2048.rowMajor (ix2 (0 : Fin 1) j)).val
  rw [Shape.rowMajor_val_one, Shape.rowMajor_val_two]
  show j.val = 0 * 2048 + j.val
  omega

theorem offs_eq (c : Dev nD) :
    offs m c = shapeCast S1x2048 (m ((c : Thread nD τ).loc main_arg6)) shapeCasts_S2048_S1x2048 := by
  show StableHlo.after hostOps0 (fun b => m (c, b)) (Proc.devRef .tc main_v4) = _
  after_results; rfl

theorem offs_apply (c : Dev nD) (j : Fin 2048) :
    offs m c (ix2 (0 : Fin 1) j) = (m ((c : Thread nD τ).loc main_arg6)) (ix1 j) := by
  rw [offs_eq]
  refine shapeCast_apply _ _ _ _ ?_
  show (S2048.rowMajor (ix1 j)).val = (S1x2048.rowMajor (ix2 (0 : Fin 1) j)).val
  rw [Shape.rowMajor_val_one, Shape.rowMajor_val_two]
  show j.val = 0 * 2048 + j.val
  omega

theorem b1_eq (c : Dev nD) :
    b1 m c = shapeCast S1x8192 (m ((c : Thread nD τ).loc main_arg8)) shapeCasts_S8192_S1x8192 := by
  show StableHlo.after hostOps0 (fun b => m (c, b)) (Proc.devRef .tc main_v5) = _
  after_results; rfl

theorem b1_apply (c : Dev nD) (j : Fin 8192) :
    b1 m c (ix2 (0 : Fin 1) j) = (m ((c : Thread nD τ).loc main_arg8)) (ix1 j) := by
  rw [b1_eq]
  refine shapeCast_apply _ _ _ _ ?_
  show (S8192.rowMajor (ix1 j)).val = (S1x8192.rowMajor (ix2 (0 : Fin 1) j)).val
  rw [Shape.rowMajor_val_one, Shape.rowMajor_val_two]
  show j.val = 0 * 8192 + j.val
  omega

theorem b2_eq (c : Dev nD) :
    b2 m c = shapeCast S1x2048 (m ((c : Thread nD τ).loc main_arg10)) shapeCasts_S2048_S1x2048 := by
  show StableHlo.after hostOps0 (fun b => m (c, b)) (Proc.devRef .tc main_v6) = _
  after_results; rfl

theorem b2_apply (c : Dev nD) (j : Fin 2048) :
    b2 m c (ix2 (0 : Fin 1) j) = (m ((c : Thread nD τ).loc main_arg10)) (ix1 j) := by
  rw [b2_eq]
  refine shapeCast_apply _ _ _ _ ?_
  show (S2048.rowMajor (ix1 j)).val = (S1x2048.rowMajor (ix2 (0 : Fin 1) j)).val
  rw [Shape.rowMajor_val_one, Shape.rowMajor_val_two]
  show j.val = 0 * 2048 + j.val
  omega

theorem w1_eq (c : Dev nD) :
    w1 m c = truncf .bf16 (m ((c : Thread nD τ).loc main_arg7)) bitsLt_bf16_f32 := by
  show StableHlo.after hostOps0 (fun b => m (c, b)) (Proc.devRef .tc main_v7) = _
  after_results

theorem w1_apply (c : Dev nD) (i : S2048x8192.Idx) : w1 m c i = (m ((c : Thread nD τ).loc main_arg7)) i := by
  rw [w1_eq]; rfl

theorem w2_eq (c : Dev nD) :
    w2 m c = truncf .bf16 (m ((c : Thread nD τ).loc main_arg9)) bitsLt_bf16_f32 := by
  show StableHlo.after hostOps0 (fun b => m (c, b)) (Proc.devRef .tc main_v8) = _
  after_results

theorem w2_apply (c : Dev nD) (i : S8192x2048.Idx) : w2 m c i = (m ((c : Thread nD τ).loc main_arg9)) i := by
  rw [w2_eq]; rfl

end Cert.KernelIdeal.HostSide

end
-- ==== Proof.Bridge.lean ====
/-
  The program's result, read at `(b, s, j)`, is the layer applied to row `(b, s)` of the arguments: the result rows
  viewed as [4, 2048, 2048] put row `b * 2048 + s` at `(b, s)`, and the arrays the region reads are views of the
  arguments.
-/
import proofs.«157771_j37125697307027_1_alg».proof.Proof.HostSide

noncomputable section

namespace Cert.KernelIdeal.Bridge

open Idealize.ShloMosaic Idealize.ShloMosaic.TcCoe Idealize.ShloMosaic.ValueIdx Idealize.SL.Sem
open Cert.KernelIdeal Cert.KernelIdeal.Gen Cert.KernelIdeal.Arr Cert.KernelIdeal.HostSide

variable (m : (ℓ : Loc nD τ sig) → Buf (Elt Ideal) ℓ)

theorem xrow_args (c : Dev nD) (b : Fin 4) (s : Fin 2048) : xrow m c (rowBS b s) = (Cert.Spec.resid (fun j' => m ((c : Thread nD τ).loc main_arg0) (ix3 b s j')) (fun j' => m ((c : Thread nD τ).loc main_arg3) (ix1 j')) (fun j' => m ((c : Thread nD τ).loc main_arg1) (ix3 b s j'))) := by
  unfold xrow
  simp only [inp_apply m c, res_apply m c, bias_apply m c]

theorem hrow_args (c : Dev nD) (b : Fin 4) (s : Fin 2048) : hrow m c (rowBS b s) = (Cert.Spec.normed (Cert.Spec.resid (fun j' => m ((c : Thread nD τ).loc main_arg0) (ix3 b s j')) (fun j' => m ((c : Thread nD τ).loc main_arg3) (ix1 j')) (fun j' => m ((c : Thread nD τ).loc main_arg1) (ix3 b s j'))) (fun j' => m ((c : Thread nD τ).loc main_arg5) (ix1 j')) (fun j' => m ((c : Thread nD τ).loc main_arg6) (ix1 j'))) := by
  unfold hrow
  rw [xrow_args]
  simp only [gain_apply m c, offs_apply m c]

theorem zrow_args (c : Dev nD) (b : Fin 4) (s : Fin 2048) :
    zrow m c (rowBS b s)
      = Cert.Spec.hidden (Cert.Spec.normed (Cert.Spec.resid (fun j' => m ((c : Thread nD τ).loc main_arg0) (ix3 b s j')) (fun j' => m ((c : Thread nD τ).loc main_arg3) (ix1 j')) (fun j' => m ((c : Thread nD τ).loc main_arg1) (ix3 b s j'))) (fun j' => m ((c : Thread nD τ).loc main_arg5) (ix1 j')) (fun j' => m ((c : Thread nD τ).loc main_arg6) (ix1 j'))) (fun j' k => m ((c : Thread nD τ).loc main_arg7) (ix2 j' k)) (fun k => m ((c : Thread nD τ).loc main_arg8) (ix1 k)) := by
  unfold zrow
  rw [hrow_args]
  simp only [w1_apply m c, b1_apply m c]

theorem w2f_args (c : Dev nD) : w2f m c = fun k j' => m ((c : Thread nD τ).loc main_arg9) (ix2 k j') := by
  unfold w2f
  simp only [w2_apply m c]

/-- The result at `(b, s, j)`. -/
theorem result_apply (c : Dev nD) (b : Fin 4) (s j : Fin 2048) :
    shapeCast S4x2048x2048 (outRows m c) shapeCasts_S8192x2048_S4x2048x2048 (ix3 b s j)
      = Cert.Spec.layer (fun j' => m ((c : Thread nD τ).loc main_arg0) (ix3 b s j')) (fun j' => m ((c : Thread nD τ).loc main_arg3) (ix1 j')) (fun j' => m ((c : Thread nD τ).loc main_arg1) (ix3 b s j'))
          (fun j' => m ((c : Thread nD τ).loc main_arg5) (ix1 j')) (fun j' => m ((c : Thread nD τ).loc main_arg6) (ix1 j')) (fun j' k => m ((c : Thread nD τ).loc main_arg7) (ix2 j' k))
          (fun k => m ((c : Thread nD τ).loc main_arg8) (ix1 k)) (fun k j' => m ((c : Thread nD τ).loc main_arg9) (ix2 k j')) (fun j' => m ((c : Thread nD τ).loc main_arg10) (ix1 j')) j := by
  refine (shapeCast_apply _ _ _ (ix2 (rowBS b s) j) ?_).trans ?_
  · show (S8192x2048.rowMajor (ix2 (rowBS b s) j)).val = (S4x2048x2048.rowMajor (ix3 b s j)).val
    rw [Shape.rowMajor_val_three, Shape.rowMajor_val_two]
    rfl
  · rw [outRows_apply, zrow_args, w2f_args, xrow_args, b2_apply]
    rfl

end Cert.KernelIdeal.Bridge

end
-- ==== Proof.lean ====
/-
  The certificate of a fused transformer MLP layer against its array-level reference, over the extended reals.

  Both programs compute, for each of the 8192 rows of the [4, 2048, 2048] input: the residual stream
  x = (input + bias) + residual; its layer normalization h = (x - mean x) · rsqrt (var x + ε) · gain + offset, the mean
  and the variance taken over the row's 2048 columns by division by 2048; the hidden row
  z = max (h · W₁ + b₁, 0) over 8192 hidden units; and the result (z · W₂ + b₂) + x.

  The reference does this on whole arrays. The kernel walks a grid of 32 row blocks of 256 rows by 16 slabs of 512
  hidden units: at a block's first slab it forms x and h for the block and keeps them, clears an accumulator, and at
  every slab adds that slab's share ∑ over its 512 hidden units of z · W₂ to the accumulator; after the last slab it
  writes accumulator + b₂ + x to the block's rows of the result. The change of float format of the weights and of h and z
  before the products is the identity on extended reals, and the products into a zero accumulator are plain sums. So the
  two results agree once the sum over the 8192 hidden units is regrouped into sixteen consecutive runs of 512, added in
  order from zero: regrouping a finite sum uses only that addition of extended reals is commutative and associative,
  which holds at the infinities too, so the inputs' finiteness is never used.

  The modules: `Spec` (the layer on one row, and the regrouping), `RefValue` (the reference at an index), `Payloads` (the
  body's stored values at an index), `Pieces` (what each branch of the body leaves in its buffers), `Arrays` and
  `Blocks` (the arrays the region finds and the blocks it loads), `Invariant` (the buffers after every grid point, by
  induction along the grid), `Final` (the region's result array and the program's result), `HostSide` and `Bridge`
  (the region's arrays as views of the arguments, and the result at an index).
-/
import proofs.«157771_j37125697307027_1_alg».proof.Defs
import proofs.«157771_j37125697307027_1_alg».proof.Proof.Gen.Kernel
import proofs.«157771_j37125697307027_1_alg».proof.Proof.Gen.Kernel.Skeleton
import proofs.«157771_j37125697307027_1_alg».proof.Proof.Gen.Kernel.Launch
import proofs.«157771_j37125697307027_1_alg».proof.Proof.Gen.Kernel.Points
import proofs.«157771_j37125697307027_1_alg».proof.Proof.Gen.Kernel.Frame
import proofs.«157771_j37125697307027_1_alg».proof.Proof.Gen.KernelIdeal
import proofs.«157771_j37125697307027_1_alg».proof.Proof.Gen.KernelIdeal.Skeleton
import proofs.«157771_j37125697307027_1_alg».proof.Proof.Gen.KernelIdeal.Launch
import proofs.«157771_j37125697307027_1_alg».proof.Proof.Gen.KernelIdeal.Points
import proofs.«157771_j37125697307027_1_alg».proof.Proof.Gen.KernelIdeal.Frame
import proofs.«157771_j37125697307027_1_alg».proof.Proof.Gen.ReferenceIdeal
import proofs.«157771_j37125697307027_1_alg».proof.Proof.Gen.ReferenceIdeal.Run
import proofs.«157771_j37125697307027_1_alg».proof.Proof.Gen.ReferenceIdeal.Read
import proofs.«157771_j37125697307027_1_alg».proof.Proof.Gen.Pre_finite_inputs
import proofs.«157771_j37125697307027_1_alg».proof.Proof.RefValue
import proofs.«157771_j37125697307027_1_alg».proof.Proof.Final
import proofs.«157771_j37125697307027_1_alg».proof.Proof.Bridge
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k [Cert.Kernel.Facts] [Cert.Pre_finite_inputs.Facts] : Cert.frame_Kernel :=
  fun m ρ _ => Cert.Kernel.Gen.frame m ρ

theorem frame_ki [Cert.KernelIdeal.Facts] [Cert.Pre_finite_inputs.Facts] : Cert.frame_KernelIdeal :=
  fun m ρ _ => Cert.KernelIdeal.Gen.frame m ρ

/-- The reference's frame is its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both programs end with, at `(b, s, j)`, the layer applied to row `(b, s)` of arguments that agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, _, h3, _, h5, h6, h7, h8, h9, h10⟩ := hagree c
  rw [Cert.ReferenceIdeal.Read.val_main_v37_eq, h0, h1, h3, h5, h6, h7, h8, h9, h10]
  funext i
  obtain ⟨b, s, j, rfl⟩ : ∃ (b : Fin 4) (s j : Fin 2048), i = ix3 b s j := ⟨i 0, i 1, i 2, eq_ix3 i⟩
  rw [Cert.RefValue.ref_apply]
  exact (Cert.KernelIdeal.Bridge.result_apply m c b s j).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
